-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x6400000 : Shape := ⟨2, ![2, 6400000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x1 .f32) (main_arg1 : IVec S2x6400000 32) (main_arg2 : FVec F S1x16 .f32) (main_arg3 : FVec F S16 .f32) (main_arg4 : FVec F S16x2 .f32) (main_arg5 : FVec F S2 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x1 : Shape := ⟨2, ![100000, 1]⟩
abbrev S2x6400000 : Shape := ⟨2, ![2, 6400000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S5000x1 : Shape := ⟨2, ![5000, 1]⟩
abbrev S5000x16 : Shape := ⟨2, ![5000, 16]⟩
abbrev S6500000x16 : Shape := ⟨2, ![6500000, 16]⟩
abbrev S100000x2 : Shape := ⟨2, ![100000, 2]⟩
abbrev S5000x2 : Shape := ⟨2, ![5000, 2]⟩
abbrev S6500000x2 : Shape := ⟨2, ![6500000, 2]⟩
abbrev S1x2 : Shape := ⟨2, ![1, 2]⟩
abbrev S5000 : Shape := ⟨1, ![5000]⟩

abbrev nBuf : Space → Nat
  | .hbm => 84
  | .vmem => 16
  | .smem => 0
  | _ => 0

abbrev bufTy : (tb : Table) → Fin (tcTables nBuf tb) → BufTy
  | .hbm, ⟨0, _⟩ => ⟨S100000x1, .f32⟩
  | .hbm, ⟨1, _⟩ => ⟨S2x6400000, .i32⟩
  | .hbm, ⟨2, _⟩ => ⟨S1x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S6500000, .i32⟩
  | .hbm, ⟨31, _⟩ => ⟨S6500000, .i1⟩
  | .hbm, ⟨32, _⟩ => ⟨S_, .i32⟩
  | .hbm, ⟨33, _⟩ => ⟨S6500000, .i32⟩
  | .hbm, ⟨34, _⟩ => ⟨S6500000, .i32⟩
  | .hbm, ⟨35, _⟩ => ⟨S6500000, .i32⟩
  | .hbm, ⟨36, _⟩ => ⟨S6500000x1, .i32⟩
  | .hbm, ⟨37, _⟩ => ⟨S6500000, .f32⟩
  | .hbm, ⟨38, _⟩ => ⟨S_, .i32⟩
  | .hbm, ⟨39, _⟩ => ⟨S6500000, .i32⟩
  | .hbm, ⟨40, _⟩ => ⟨S6500000, .i1⟩
  | .hbm, ⟨41, _⟩ => ⟨S_, .i32⟩
  | .hbm, ⟨42, _⟩ => ⟨S6500000, .i32⟩
  | .hbm, ⟨43, _⟩ => ⟨S6500000, .i32⟩
  | .hbm, ⟨44, _⟩ => ⟨S6500000, .i32⟩
  | .hbm, ⟨45, _⟩ => ⟨S6500000x1, .i32⟩
  | .hbm, ⟨46, _⟩ => ⟨S6500000, .f32⟩
  | .hbm, ⟨47, _⟩ => ⟨S6500000, .f32⟩
  | .hbm, ⟨48, _⟩ => ⟨S6500000x1, .f32⟩
  | .hbm, ⟨49, _⟩ => ⟨S100000x16, .f32⟩
  | .hbm, ⟨50, _⟩ => ⟨S_, .i32⟩
  | .hbm, ⟨51, _⟩ => ⟨S6500000, .i32⟩
  | .hbm, ⟨52, _⟩ => ⟨S6500000, .i1⟩
  | .hbm, ⟨53, _⟩ => ⟨S_, .i32⟩
  | .hbm, ⟨54, _⟩ => ⟨S6500000, .i32⟩
  | .hbm, ⟨55, _⟩ => ⟨S6500000, .i32⟩
  | .hbm, ⟨56, _⟩ => ⟨S6500000, .i32⟩
  | .hbm, ⟨57, _⟩ => ⟨S6500000x1, .i32⟩
  | .hbm, ⟨58, _⟩ => ⟨S6500000x16, .f32⟩
  | .hbm, ⟨59, _⟩ => ⟨S6500000x16, .f32⟩
  | .hbm, ⟨60, _⟩ => ⟨S6500000x16, .f32⟩
  | .hbm, ⟨61, _⟩ => ⟨S_, .f32⟩
  | .hbm, ⟨62, _⟩ => ⟨S100000x16, .f32⟩
  | .hbm, ⟨63, _⟩ => ⟨S6500000x1, .i32⟩
  | .hbm, ⟨64, _⟩ => ⟨S100000x16, .f32⟩
  | .hbm, ⟨65, _⟩ => ⟨S1x16, .f32⟩
  | .hbm, ⟨66, _⟩ => ⟨S100000x2, .f32⟩
  | .hbm, ⟨67, _⟩ => ⟨S_, .i32⟩
  | .hbm, ⟨68, _⟩ => ⟨S6500000, .i32⟩
  | .hbm, ⟨69, _⟩ => ⟨S6500000, .i1⟩
  | .hbm, ⟨70, _⟩ => ⟨S_, .i32⟩
  | .hbm, ⟨71, _⟩ => ⟨S6500000, .i32⟩
  | .hbm, ⟨72, _⟩ => ⟨S6500000, .i32⟩
  | .hbm, ⟨73, _⟩ => ⟨S6500000, .i32⟩
  | .hbm, ⟨74, _⟩ => ⟨S6500000x1, .i32⟩
  | .hbm, ⟨75, _⟩ => ⟨S6500000x2, .f32⟩
  | .hbm, ⟨76, _⟩ => ⟨S6500000x2, .f32⟩
  | .hbm, ⟨77, _⟩ => ⟨S6500000x2, .f32⟩
  | .hbm, ⟨78, _⟩ => ⟨S_, .f32⟩
  | .hbm, ⟨79, _⟩ => ⟨S100000x2, .f32⟩
  | .hbm, ⟨80, _⟩ => ⟨S6500000x1, .i32⟩
  | .hbm, ⟨81, _⟩ => ⟨S100000x2, .f32⟩
  | .hbm, ⟨82, _⟩ => ⟨S1x2, .f32⟩
  | .hbm, ⟨83, _⟩ => ⟨S100000x2, .f32⟩
  | .local _ .vmem, ⟨0, _⟩ => ⟨S5000x1, .f32⟩
  | .local _ .vmem, ⟨1, _⟩ => ⟨S5000x1, .f32⟩
  | .local _ .vmem, ⟨2, _⟩ => ⟨S1x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x2, .f32⟩
  | .local _ .vmem, ⟨9, _⟩ => ⟨S5000x2, .f32⟩
  | .local _ .vmem, ⟨10, _⟩ => ⟨S5000x2, .f32⟩
  | .local _ .vmem, ⟨11, _⟩ => ⟨S5000x2, .f32⟩
  | .local _ .vmem, ⟨12, _⟩ => ⟨S5000x2, .f32⟩
  | .local _ .vmem, ⟨13, _⟩ => ⟨S1x2, .f32⟩
  | .local _ .vmem, ⟨14, _⟩ => ⟨S5000x2, .f32⟩
  | .local _ .vmem, ⟨15, _⟩ => ⟨S5000x2, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S5000x1_S5000x1_0_0 : ∀ a, (![0, 0] : Fin 2 → Nat) a + S5000x1.size a ≤ S5000x1.size a
  h_S5000x1 : 0 < S5000x1.numel
  inb_S1x16_S1x16_0_0 : ∀ a, (![0, 0] : Fin 2 → Nat) a + S1x16.size a ≤ S1x16.size a
  h_S1x16 : 0 < S1x16.numel
  broadcasts_S5000x1_S5000x16 : S5000x1.Broadcasts S5000x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  shapeCasts_S1x16_S1x16 : S1x16.ShapeCasts S1x16
  bitsLt_bf16_f32 : FTy.bits .bf16 < FTy.bits .f32
  inb_S16x2_S16x2_0_0 : ∀ a, (![0, 0] : Fin 2 → Nat) a + S16x2.size a ≤ S16x2.size a
  h_S16x2 : 0 < S16x2.numel
  inb_S5000x2_S5000x2_0_0 : ∀ a, (![0, 0] : Fin 2 → Nat) a + S5000x2.size a ≤ S5000x2.size a
  h_S5000x2 : 0 < S5000x2.numel
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S5000x16_S16x2_S5000x2_1_0_0_1_n_n_wf : DotDims.WF S5000x16 S16x2 S5000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2.size a ≤ S16x2.size a
  hwx1_2 : ∀ i : grid1.Coords, EltTy.bits .f32 = 32 ∨ (Rect.block (s := S16x2) S16x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x2.size a ≤ S100000x2.size a
  hwx1_3 : ∀ i : grid1.Coords, EltTy.bits .f32 = 32 ∨ (Rect.block (s := S100000x2) S5000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x2.size a ≤ S100000x2.size a
  hwx2_0 : ∀ i : grid2.Coords, EltTy.bits .f32 = 32 ∨ (Rect.block (s := S100000x2) S5000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x6400000 : Shape := ⟨2, ![2, 6400000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S100000x16 : Shape := ⟨2, ![100000, 16]⟩
abbrev S_ : Shape := ⟨0, ![]⟩
abbrev S6500000x1 : Shape := ⟨2, ![6500000, 1]⟩
abbrev S6500000x16 : Shape := ⟨2, ![6500000, 16]⟩
abbrev S100000x2 : Shape := ⟨2, ![100000, 2]⟩
abbrev S6500000x2 : Shape := ⟨2, ![6500000, 2]⟩
abbrev S1x2 : Shape := ⟨2, ![1, 2]⟩

abbrev nBuf : Space → Nat
  | .hbm => 141
  | .vmem => 0
  | .smem => 0
  | _ => 0

abbrev hbmTy0_0 (i : Nat) : BufTy := match i % 128 with
  | 0 => ⟨S100000x1, .f32⟩
  | 1 => ⟨S2x6400000, .i32⟩
  | 2 => ⟨S1x16, .f32⟩
  | 3 => ⟨S16, .f32⟩
  | 4 => ⟨S16x2, .f32⟩
  | 5 => ⟨S2, .f32⟩
  | 6 => ⟨S100000, .i32⟩
  | 7 => ⟨S1x6400000, .i32⟩
  | 8 => ⟨S6400000, .i32⟩
  | 9 => ⟨S6500000, .i32⟩
  | 10 => ⟨S1x6400000, .i32⟩
  | 11 => ⟨S6400000, .i32⟩
  | 12 => ⟨S6500000, .i32⟩
  | 13 => ⟨S100000x16, .f32⟩
  | 14 => ⟨S_, .f32⟩
  | 15 => ⟨S6500000, .f32⟩
  | 16 => ⟨S_, .f32⟩
  | 17 => ⟨S100000, .f32⟩
  | 18 => ⟨S6500000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S6500000, .i32⟩
  | 32 => ⟨S6500000, .i1⟩
  | 33 => ⟨S_, .i32⟩
  | 34 => ⟨S6500000, .i32⟩
  | 35 => ⟨S6500000, .i32⟩
  | 36 => ⟨S6500000, .i32⟩
  | 37 => ⟨S6500000x1, .i32⟩
  | 38 => ⟨S6500000, .f32⟩
  | 39 => ⟨S_, .i32⟩
  | 40 => ⟨S6500000, .i32⟩
  | 41 => ⟨S6500000, .i1⟩
  | 42 => ⟨S_, .i32⟩
  | 43 => ⟨S6500000, .i32⟩
  | 44 => ⟨S6500000, .i32⟩
  | 45 => ⟨S6500000, .i32⟩
  | 46 => ⟨S6500000x1, .i32⟩
  | 47 => ⟨S6500000, .f32⟩
  | 48 => ⟨S6500000, .f32⟩
  | 49 => ⟨S_, .i32⟩
  | 50 => ⟨S6500000, .i32⟩
  | 51 => ⟨S6500000, .i1⟩
  | 52 => ⟨S_, .i32⟩
  | 53 => ⟨S6500000, .i32⟩
  | 54 => ⟨S6500000, .i32⟩
  | 55 => ⟨S6500000, .i32⟩
  | 56 => ⟨S6500000x1, .i32⟩
  | 57 => ⟨S6500000x16, .f32⟩
  | 58 => ⟨S6500000x1, .f32⟩
  | 59 => ⟨S6500000x16, .f32⟩
  | 60 => ⟨S6500000x16, .f32⟩
  | 61 => ⟨S_, .f32⟩
  | 62 => ⟨S100000x16, .f32⟩
  | 63 => ⟨S6500000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x2, .f32⟩
  | 72 => ⟨S_, .f32⟩
  | 73 => ⟨S6500000, .f32⟩
  | 74 => ⟨S_, .f32⟩
  | 75 => ⟨S100000, .f32⟩
  | 76 => ⟨S6500000x1, .i32⟩
  | 77 => ⟨S100000, .f32⟩
  | 78 => ⟨S_, .f32⟩
  | 79 => ⟨S100000, .f32⟩
  | 80 => ⟨S100000, .i1⟩
  | 81 => ⟨S_, .f32⟩
  | 82 => ⟨S100000, .f32⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S6500000, .i32⟩
  | 90 => ⟨S6500000, .i1⟩
  | 91 => ⟨S_, .i32⟩
  | 92 => ⟨S6500000, .i32⟩
  | 93 => ⟨S6500000, .i32⟩
  | 94 => ⟨S6500000, .i32⟩
  | 95 => ⟨S6500000x1, .i32⟩
  | 96 => ⟨S6500000, .f32⟩
  | 97 => ⟨S_, .i32⟩
  | 98 => ⟨S6500000, .i32⟩
  | 99 => ⟨S6500000, .i1⟩
  | 100 => ⟨S_, .i32⟩
  | 101 => ⟨S6500000, .i32⟩
  | 102 => ⟨S6500000, .i32⟩
  | 103 => ⟨S6500000, .i32⟩
  | 104 => ⟨S6500000x1, .i32⟩
  | 105 => ⟨S6500000, .f32⟩
  | 106 => ⟨S6500000, .f32⟩
  | 107 => ⟨S_, .i32⟩
  | 108 => ⟨S6500000, .i32⟩
  | 109 => ⟨S6500000, .i1⟩
  | 110 => ⟨S_, .i32⟩
  | 111 => ⟨S6500000, .i32⟩
  | 112 => ⟨S6500000, .i32⟩
  | 113 => ⟨S6500000, .i32⟩
  | 114 => ⟨S6500000x1, .i32⟩
  | 115 => ⟨S6500000x2, .f32⟩
  | 116 => ⟨S6500000x1, .f32⟩
  | 117 => ⟨S6500000x2, .f32⟩
  | 118 => ⟨S6500000x2, .f32⟩
  | 119 => ⟨S_, .f32⟩
  | 120 => ⟨S100000x2, .f32⟩
  | 121 => ⟨S6500000x1, .i32⟩
  | 122 => ⟨S100000x2, .f32⟩
  | 123 => ⟨S1x2, .f32⟩
  | 124 => ⟨S100000x2, .f32⟩
  | 125 => ⟨S100000x2, .f32⟩
  | 126 => ⟨S_, .f32⟩
  | 127 => ⟨S100000, .f32⟩
  | _ => ⟨S100000x1, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x2, .f32⟩
  | 5 => ⟨S100000x2, .f32⟩
  | 6 => ⟨S100000x2, .f32⟩
  | 7 => ⟨S_, .f32⟩
  | 8 => ⟨S100000, .f32⟩
  | 9 => ⟨S100000x1, .f32⟩
  | 10 => ⟨S100000x1, .f32⟩
  | 11 => ⟨S100000x2, .f32⟩
  | 12 => ⟨S100000x2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_15 : Ref sig .tc := ⟨.hbm, 88, rfl⟩
abbrev main_v59 : Ref sig .tc := ⟨.hbm, 89, rfl⟩
abbrev main_v60 : Ref sig .tc := ⟨.hbm, 90, rfl⟩
abbrev main_c_16 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_17 : Ref sig .tc := ⟨.hbm, 97, rfl⟩
abbrev main_v66 : Ref sig .tc := ⟨.hbm, 98, rfl⟩
abbrev main_v67 : Ref sig .tc := ⟨.hbm, 99, rfl⟩
abbrev main_c_18 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_19 : Ref sig .tc := ⟨.hbm, 107, rfl⟩
abbrev main_v74 : Ref sig .tc := ⟨.hbm, 108, rfl⟩
abbrev main_v75 : Ref sig .tc := ⟨.hbm, 109, rfl⟩
abbrev main_c_20 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_21 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_call3_cst_0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_v6 : Ref sig .tc := ⟨.hbm, 134, rfl⟩
abbrev main_call3_cst_1 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_v90 : Ref sig .tc := ⟨.hbm, 140, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  dot_S100000x1_S1x16_S100000x16_1_0_0_1_n_n_wf : DotDims.WF S100000x1 S1x16 S100000x16 [1] [0] [0] [1] [] []
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x2_S100000x2_1_0_0_1_n_n_wf : DotDims.WF S100000x16 S16x2 S100000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1

variable [Facts₀]

def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf

class Facts : Prop extends Facts₀ where

variable [Facts]
-- ==== Proof.Spec.lean ====
/-
  The three dense stages of the two-layer graph convolution, as whole-array functions over the extended reals,
  index by index: the outer product of the node column with the first weight row; the rectified, biased
  aggregate times the second weight matrix; and the row-wise log-softmax of the biased second aggregate.
-/
import Idealize.ShloMosaic.PureOps.Ideal
import Idealize.ShloMosaic.Lib.ValueIdx

noncomputable section

namespace Cert.Spec

open Idealize.ShloMosaic Idealize.ShloMosaic.ValueIdx
open scoped BigOperators

abbrev SNx1 : Shape := ⟨2, ![100000, 1]⟩
abbrev SNx16 : Shape := ⟨2, ![100000, 16]⟩
abbrev SNx2 : Shape := ⟨2, ![100000, 2]⟩
abbrev S1x16 : Shape := ⟨2, ![1, 16]⟩
abbrev S16x2 : Shape := ⟨2, ![16, 2]⟩
abbrev S1x2 : Shape := ⟨2, ![1, 2]⟩

/-- Layer one before aggregation: entry (p, q) is x[p, 0] · w[0, q]. -/
def G0 (x : SNx1.Idx → EReal) (w : S1x16.Idx → EReal) : SNx16.Idx → EReal := fun i =>
  x (ix2 (⟨(i 0).val, (i 0).isLt⟩ : Fin 100000) (0 : Fin 1)) * w (ix2 (0 : Fin 1) (⟨(i 1).val, (i 1).isLt⟩ : Fin 16))

/-- The rectified, biased first aggregate: max (a[p, k] + b[0, k]) 0. -/
def relu1 (a : SNx16.Idx → EReal) (b : S1x16.Idx → EReal) (p : Fin 100000) (k : Fin 16) : EReal :=
  max (a (ix2 p k) + b (ix2 (0 : Fin 1) k)) (Ideal.ofBits .f32 0x00000000#32)

/-- Layer two before aggregation: entry (p, q) is the sum over k of relu1[p, k] · w[k, q]. -/
def G1 (a : SNx16.Idx → EReal) (b : S1x16.Idx → EReal) (w : S16x2.Idx → EReal) : SNx2.Idx → EReal := fun i =>
  ∑ k : Fin 16, relu1 a b ⟨(i 0).val, (i 0).isLt⟩ k * w (ix2 k (⟨(i 1).val, (i 1).isLt⟩ : Fin 2))

/-- A row of biased logits: z[p, k] = a[p, k] + b[0, k]. -/
def zrow (a : SNx2.Idx → EReal) (b : S1x2.Idx → EReal) (p : Fin 100000) (k : Fin 2) : EReal :=
  a (ix2 p k) + b (ix2 (0 : Fin 1) k)

/-- The maximum of a row of two, folded from minus infinity. -/
def rowMax (z : Fin 2 → EReal) : EReal :=
  (Finset.univ : Finset (Fin 2)).fold max (Ideal.ofBits .f32 0xFF800000#32) z

/-- The log-softmax as the kernel computes it: z − (m + log Σ exp (z − m)) with m the row's maximum. -/
def G2 (a : SNx2.Idx → EReal) (b : S1x2.Idx → EReal) : SNx2.Idx → EReal := fun i =>
  zrow a b ⟨(i 0).val, (i 0).isLt⟩ ⟨(i 1).val, (i 1).isLt⟩
    - (rowMax (zrow a b ⟨(i 0).val, (i 0).isLt⟩)
        + Ideal.log (∑ k : Fin 2, Ideal.exp (zrow a b ⟨(i 0).val, (i 0).isLt⟩ k - rowMax (zrow a b ⟨(i 0).val, (i 0).isLt⟩))))

end Cert.Spec

end
-- ==== Proof.Reg0.lean ====
import proofs.«143023_j88502096101846_1_alg».proof.Proof.Gen.KernelIdeal.Frame
import proofs.«143023_j88502096101846_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg0

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The whole-block accesses start at offset zero on both axes. -/
theorem off_zero : (![0, 0] : Fin 2 → Nat) = fun _ => 0 :=
  funext fun a => by match a with | ⟨0, _⟩ => rfl | ⟨1, _⟩ => rfl

/-- Entry (p, q) of the product of the column stretched along the lanes and the row stretched down the
    rows is the column's entry in row p times the row's entry in lane q. -/
theorem pay_apply (x0 : Vec Ideal S5000x1 .f32) (x1 : Vec Ideal S1x16 .f32) (p : Fin 5000) (q : Fin 16) :
    k0_pay1 x0 x1 (ix2 p q) = x0 (ix2 p (0 : Fin 1)) * x1 (ix2 (0 : Fin 1) q) := by
  unfold k0_pay1
  refine (mulf_apply _ _ _).trans ?_
  congr 1
  · exact broadcastTo_apply x0 _ (ix2 p q) (ix2 p 0) (fun a => by match a with | ⟨0, _⟩ => rfl | ⟨1, _⟩ => rfl)
  · exact broadcastTo_apply x1 _ (ix2 p q) (ix2 0 q) (fun a => by match a with | ⟨0, _⟩ => rfl | ⟨1, _⟩ => rfl)

/-- The block indices of the three windows, decided once over the twenty grid points: the column's block and
    the output's block sit at block row t, column block 0; the weight row's block is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the outer product of the region's column and weight row: the
    body's store fills the whole staging buffer with its product, the column's block sits at the same block
    row as the output's, and the weight row's one block is the whole row. -/
theorem flushed_eq (c : Dev nD) (t : Fin cfg0.N) :
    (dat0 (F := Ideal) V c).flushed 2 t
      = ((cfg0.win 2).blk t).view.read (Elt Ideal) (Cert.Spec.G0 (V c main_arg0) (V c main_arg2)) := by
  show (cfg0.win 2).cut (grid0.coords t) ((dat0 V c).after 2 t) = _
  rw [after0_2]
  unfold out0_2
  rw [View.canon_unit_zero off_zero]
  simp only [View.ld_unit_zero (S := S5000x1) off_zero, View.ld_unit_zero (S := S1x16) off_zero]
  obtain ⟨e0, e1, e2, e3, e4, e5⟩ := idx_facts t
  funext j
  obtain ⟨p, q, rfl⟩ : ∃ (p : Fin 5000) (q : Fin 16), j = ix2 p q := ⟨j 0, j 1, eq_ix2 j⟩
  show k0_pay1 (iblk0 V c 0 t) (iblk0 V c 1 t) (ix2 p q)
    = Cert.Spec.G0 (V c main_arg0) (V c main_arg2) (((cfg0.win 2).blk t).view.emb (ix2 p q))
  refine (pay_apply _ _ p q).trans ?_
  unfold Cert.Spec.G0
  congr 1
  · show V c main_arg0 (((cfg0.win 0).blk t).view.emb (ix2 p (0 : Fin 1))) = V c main_arg0 _
    refine congrArg _ (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 1 + 1 * 0 = 0
      omega
  · show V c main_arg2 (((cfg0.win 1).blk t).view.emb (ix2 (0 : Fin 1) q)) = V c main_arg2 _
    refine congrArg _ (funext fun a => Fin.ext ?_)
    match a with
    | ⟨0, _⟩ =>
      show win0_1.index t (0 : Fin 2) * 1 + 1 * 0 = 0
      omega
    | ⟨1, _⟩ =>
      show win0_1.index t (1 : Fin 2) * 16 + 1 * q.val = win0_2.index t (1 : Fin 2) * 16 + 1 * q.val
      omega

/-- An index of the output array lies in point t's block exactly when each of its coordinates lies in the
    block's range on that axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- The twenty row blocks tile the array: row r, in every lane, belongs to the block of point r / 5000. -/
theorem cover (i : S100000x16.Idx) :
    ∃ t : Fin cfg0.N, (cfg0.win 2).flush t = true ∧ i ∈ ((cfg0.win 2).blk t).view.set := by
  have hi0 : (i 0).val < 100000 := idx2_lt0 i
  have hi1 : (i 1).val < 16 := idx2_lt1 i
  have hr : (i 0).val / 5000 < cfg0.N := by show (i 0).val / 5000 < 20; omega
  obtain ⟨t, ht⟩ : ∃ t : Fin cfg0.N, t.val = (i 0).val / 5000 := ⟨⟨(i 0).val / 5000, hr⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 16 ≤ (i 1).val ∧ (i 1).val < win0_2.index t (1 : Fin 2) * 16 + 16
    omega

/-- Every point writes its block back and the blocks tile the array, so after the whole grid the output array
    is the outer product, index by index. -/
theorem final0 (c : Dev nD) : (dat0 (F := Ideal) V c).arrAt 2 cfg0.N = Cert.Spec.G0 (V c main_arg0) (V c main_arg2) := by
  exact (dat0 (F := Ideal) V c).arrAt_eq_of_cover 2 (Cert.Spec.G0 (V c main_arg0) (V c main_arg2))
    (fun t _ => flushed_eq V c t) cover

end Cert.KernelIdeal.Reg0

end
-- ==== Proof.Reg1.lean ====
import proofs.«143023_j88502096101846_1_alg».proof.Proof.Gen.KernelIdeal.Frame
import proofs.«143023_j88502096101846_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg1

open Idealize.ShloMosaic Idealize.ShloMosaic.TcCoe Idealize.SL.Sem Idealize.ShloMosaic.ValueIdx
open Cert.KernelIdeal Cert.KernelIdeal.Gen
open scoped BigOperators

/-! ## The contraction's operand indices

The product contracts the left operand's columns against the right operand's rows: at output entry (p, q) and
contraction position k the left factor sits at (p, k) and the right factor at (k, q). One fact per axis of each operand. -/

/-- The left operand's row is the output's row. -/
theorem lhs_row (i : S5000x2.Idx) (q : dot_S5000x16_S16x2_S5000x2_1_0_0_1_n_n.contr.Idx) :
    (dot_S5000x16_S16x2_S5000x2_1_0_0_1_n_n.lhsIdx i q 0).val = (i 0).val := by
  unfold DotDims.lhsIdx
  rw [dif_neg (show ¬(0 : Fin S5000x16.rank) ∈ dot_S5000x16_S16x2_S5000x2_1_0_0_1_n_n.lhsBatch by decide), dif_pos (show (0 : Fin S5000x16.rank) ∈ dot_S5000x16_S16x2_S5000x2_1_0_0_1_n_n.lhsNonContracting by decide)]
  rfl

/-- The left operand's column is the contraction position. -/
theorem lhs_col (i : S5000x2.Idx) (q : dot_S5000x16_S16x2_S5000x2_1_0_0_1_n_n.contr.Idx) :
    (dot_S5000x16_S16x2_S5000x2_1_0_0_1_n_n.lhsIdx i q 1).val = (q ⟨0, by decide⟩).val :=
  dot_S5000x16_S16x2_S5000x2_1_0_0_1_n_n.lhsIdx_val_of_single rfl i q

/-- The right operand's row is the contraction position. -/
theorem rhs_row (i : S5000x2.Idx) (q : dot_S5000x16_S16x2_S5000x2_1_0_0_1_n_n.contr.Idx) :
    (dot_S5000x16_S16x2_S5000x2_1_0_0_1_n_n.rhsIdx i q 0).val = (q ⟨0, by decide⟩).val :=
  dot_S5000x16_S16x2_S5000x2_1_0_0_1_n_n.rhsIdx_val_of_single rfl i q

/-- The right operand's column is the output's column. -/
theorem rhs_col (i : S5000x2.Idx) (q : dot_S5000x16_S16x2_S5000x2_1_0_0_1_n_n.contr.Idx) :
    (dot_S5000x16_S16x2_S5000x2_1_0_0_1_n_n.rhsIdx i q 1).val = (i 1).val := by
  unfold DotDims.rhsIdx
  rw [dif_neg (show ¬(1 : Fin S16x2.rank) ∈ dot_S5000x16_S16x2_S5000x2_1_0_0_1_n_n.rhsBatch by decide), dif_pos (show (1 : Fin S16x2.rank) ∈ dot_S5000x16_S16x2_S5000x2_1_0_0_1_n_n.rhsNonContracting by decide)]
  rfl

/-! ## One block's arithmetic, entry by entry -/

/-- A product accumulated onto zero, at entry (p, q): the sum over k of left[p, k] · right[k, q]. -/
theorem product_apply (y : FVec Ideal S5000x16 .bf16) (z : FVec Ideal S16x2 .bf16) (p : Fin 5000) (q : Fin 2) :
    matmul dot_S5000x16_S16x2_S5000x2_1_0_0_1_n_n none y z (constant (F := Ideal) S5000x2 .f32 0x00000000#32) (ix2 p q)
      = ∑ k : Fin 16, y (ix2 p k) * z (ix2 k q) := by
  simp only [matmul]
  rw [Ideal.matmul_constant_zero_apply, ← Equiv.sum_comp (ValueIdx.contrEquiv1 dot_S5000x16_S16x2_S5000x2_1_0_0_1_n_n 16 rfl rfl).symm]
  refine Finset.sum_congr rfl fun k _ => ?_
  have hk := ValueIdx.contrEquiv1_symm_val dot_S5000x16_S16x2_S5000x2_1_0_0_1_n_n 16 rfl rfl k
  have el : dot_S5000x16_S16x2_S5000x2_1_0_0_1_n_n.lhsIdx (ix2 p q) ((ValueIdx.contrEquiv1 dot_S5000x16_S16x2_S5000x2_1_0_0_1_n_n 16 rfl rfl).symm k) = ix2 p k := funext fun a => Fin.ext (by
    match a with
    | ⟨0, _⟩ => exact lhs_row _ _
    | ⟨1, _⟩ => exact (lhs_col _ _).trans hk)
  have er : dot_S5000x16_S16x2_S5000x2_1_0_0_1_n_n.rhsIdx (ix2 p q) ((ValueIdx.contrEquiv1 dot_S5000x16_S16x2_S5000x2_1_0_0_1_n_n 16 rfl rfl).symm k) = ix2 k q := funext fun a => Fin.ext (by
    match a with
    | ⟨0, _⟩ => exact (rhs_row _ _).trans hk
    | ⟨1, _⟩ => exact rhs_col _ _)
  rw [el, er]

/-- A bias row spread over the block's rows reads its own column. -/
theorem bias_apply (x1 : Vec Ideal S1x16 .f32) (p : Fin 5000) (k : Fin 16) :
    broadcastTo S5000x16 x1 broadcasts_S1x16_S5000x16 (ix2 p k) = x1 (ix2 (0 : Fin 1) k) :=
  broadcastTo_apply x1 broadcasts_S1x16_S5000x16 (ix2 p k) (ix2 (0 : Fin 1) k) (fun a => by
    match a with
    | ⟨0, _⟩ => rfl
    | ⟨1, _⟩ => rfl)

/-- The block the body stores, at entry (p, q): the sum over k of max (a[p, k] + b[0, k]) 0 · w[k, q]. -/
theorem pay_apply (x0 : Vec Ideal S5000x16 .f32) (x1 : Vec Ideal S1x16 .f32) (x2 : Vec Ideal S16x2 .f32) (p : Fin 5000) (q : Fin 2) :
    k1_pay1 (F := Ideal) x0 x1 x2 (ix2 p q)
      = ∑ k : Fin 16, max (x0 (ix2 p k) + x1 (ix2 (0 : Fin 1) k)) (Ideal.ofBits .f32 0x00000000#32) * x2 (ix2 k q) := by
  unfold k1_pay1
  refine (product_apply _ _ p q).trans ?_
  refine Finset.sum_congr rfl fun k _ => ?_
  simp only [truncf_apply, maximumf_apply, addf_apply, broadcast_apply, shapeCast_self]
  rw [bias_apply x1 p k]
  rfl

variable (V : (c : Dev nD) → (b : Ref sig .tc) → Buf (Elt Ideal) ((c : Thread nD τ).loc b))

/-! ## From the blocks to the whole array -/

theorem origin_zero : (![0, 0] : Fin 2 → Nat) = fun _ => 0 := funext fun a => by fin_cases a <;> rfl

/-- Where each window's block sits at grid point t: the aggregate's and the output's blocks are the t-th band of
    5000 rows, all columns; the bias row and the weight matrix are whole at every point. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate's block at point t is rows 5000·t … 5000·t + 4999 of the aggregate, all sixteen columns. -/
theorem agg_block (c : Dev nD) (t : Fin cfg1.N) (x : S5000x16.Idx) (g : S100000x16.Idx)
    (h0 : (g 0).val = t.val * 5000 + (x 0).val) (h1 : (g 1).val = (x 1).val) :
    (iblk1 V c 0 t : Vec Ideal S5000x16 .f32) x = (V c main_v44 : S100000x16.Idx → Elt Ideal .f32) g := by
  obtain ⟨e0, e1, -⟩ := block_positions t
  unfold iblk1
  rw [View.read_apply]
  show V c main_v44 _ = V c main_v44 _
  congr 1
  funext a
  apply Fin.ext
  match a with
  | ⟨0, _⟩ => show win1_0.index t (0 : Fin 2) * 5000 + 1 * (x 0).val = (g 0).val; rw [e0, h0]; omega
  | ⟨1, _⟩ => show win1_0.index t (1 : Fin 2) * 16 + 1 * (x 1).val = (g 1).val; rw [e1, h1]; omega

/-- The bias row's block is the bias row at every point. -/
theorem bias_block (c : Dev nD) (t : Fin cfg1.N) (x : S1x16.Idx) :
    (iblk1 V c 1 t : Vec Ideal S1x16 .f32) x = (V c main_v45 : S1x16.Idx → Elt Ideal .f32) x := by
  obtain ⟨-, -, e2, e3, -⟩ := block_positions t
  unfold iblk1
  rw [View.read_apply]
  show V c main_v45 _ = V c main_v45 _
  congr 1
  funext a
  apply Fin.ext
  match a with
  | ⟨0, _⟩ => show win1_1.index t (0 : Fin 2) * 1 + 1 * (x 0).val = (x 0).val; rw [e2]; omega
  | ⟨1, _⟩ => show win1_1.index t (1 : Fin 2) * 16 + 1 * (x 1).val = (x 1).val; rw [e3]; omega

/-- The weight matrix's block is the weight matrix at every point. -/
theorem weight_block (c : Dev nD) (t : Fin cfg1.N) (x : S16x2.Idx) (g : S16x2.Idx)
    (h0 : (g 0).val = (x 0).val) (h1 : (g 1).val = (x 1).val) :
    (iblk1 V c 2 t : Vec Ideal S16x2 .f32) x = (V c main_arg4 : S16x2.Idx → Elt Ideal .f32) g := by
  obtain ⟨-, -, -, -, e4, e5, -⟩ := block_positions t
  unfold iblk1
  rw [View.read_apply]
  show V c main_arg4 _ = V c main_arg4 _
  congr 1
  funext a
  apply Fin.ext
  match a with
  | ⟨0, _⟩ => show win1_2.index t (0 : Fin 2) * 16 + 1 * (x 0).val = (g 0).val; rw [e4, h0]; omega
  | ⟨1, _⟩ => show win1_2.index t (1 : Fin 2) * 2 + 1 * (x 1).val = (g 1).val; rw [e5, h1]; omega

/-- What grid point t writes back is the t-th band of rows of the layer's whole-array function. -/
theorem flushed_eq (c : Dev nD) (t : Fin cfg1.N) :
    (dat1 (F := Ideal) V c).flushed 3 t = ((cfg1.win 3).blk t).view.read (Elt Ideal) (Cert.Spec.G1 (V c main_v44) (V c main_v45) (V c main_arg4)) := by
  show (cfg1.win 3).cut (grid1.coords t) ((dat1 V c).after 3 t) = _
  rw [after1_3]
  unfold out1_3
  rw [View.canon_unit_zero origin_zero]
  simp only [View.ld_unit_zero (S := S5000x16) origin_zero, View.ld_unit_zero (S := S1x16) origin_zero, View.ld_unit_zero (S := S16x2) origin_zero]
  obtain ⟨-, -, -, -, -, -, e6, e7⟩ := block_positions t
  funext j
  obtain ⟨p, q, rfl⟩ : ∃ (p : Fin 5000) (q : Fin 2), j = (ix2 p q : S5000x2.Idx) := ⟨j 0, j 1, eq_ix2 (n0 := 5000) (n1 := 2) j⟩
  show k1_pay1 (F := Ideal) (iblk1 V c 0 t) (iblk1 V c 1 t) (iblk1 V c 2 t) (ix2 p q)
    = Cert.Spec.G1 (V c main_v44) (V c main_v45) (V c main_arg4) (((cfg1.win 3).blk t).view.emb (ix2 p q : S5000x2.Idx))
  refine (pay_apply (iblk1 V c 0 t) (iblk1 V c 1 t) (iblk1 V c 2 t) p q).trans ?_
  have h0 : (((cfg1.win 3).blk t).view.emb (ix2 p q : S5000x2.Idx) (0 : Fin 2)).val = t.val * 5000 + p.val := by
    show win1_3.index t (0 : Fin 2) * 5000 + 1 * p.val = _
    rw [e6]; omega
  have h1 : (((cfg1.win 3).blk t).view.emb (ix2 p q : S5000x2.Idx) (1 : Fin 2)).val = q.val := by
    show win1_3.index t (1 : Fin 2) * 2 + 1 * q.val = _
    rw [e7]; omega
  unfold Cert.Spec.G1
  show _ = ∑ k : Fin 16, _
  refine Finset.sum_congr rfl fun k _ => ?_
  unfold Cert.Spec.relu1
  exact congrArg₂ (· * ·)
    (congrArg₂ max (congrArg₂ (· + ·) (agg_block V c t (ix2 p k) _ h0 rfl) (bias_block V c t (ix2 (0 : Fin 1) k))) rfl)
    (weight_block V c t (ix2 k q) _ rfl h1)

/-- An index of the output array lies in point t's block iff each coordinate lies in the block's range on its axis. -/
theorem mem_band (t : Fin cfg1.N) (i : S100000x2.Idx) :
    i ∈ ((cfg1.win 3).blk t).view.set ↔ ∀ a : Fin 2, win1_3.index t a * S5000x2.size a ≤ (i a).val ∧ (i a).val < win1_3.index t a * S5000x2.size a + S5000x2.size a := by
  show i ∈ ((View.whole main_v46).slice (win1_3.rect t)).set ↔ _
  rw [View.set_slice_whole, Rect.mem_set_unit]
  exact Iff.rfl

/-- The twenty bands of 5000 rows tile the 100000 rows: row r lies in band r / 5000. -/
theorem bands_cover (i : S100000x2.Idx) :
    ∃ t : Fin cfg1.N, (cfg1.win 3).flush t = true ∧ i ∈ ((cfg1.win 3).blk t).view.set := by
  have hi0 : (i 0).val < 100000 := (i 0).isLt
  have hi1 : (i 1).val < 2 := (i 1).isLt
  have ht : (i 0).val / 5000 < 20 := by omega
  obtain ⟨-, -, -, -, -, -, e6, e7⟩ := block_positions ⟨(i 0).val / 5000, ht⟩
  refine ⟨⟨(i 0).val / 5000, ht⟩, flush1_3 _, ?_⟩
  rw [mem_band]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win1_3.index ⟨(i 0).val / 5000, ht⟩ (1 : Fin 2) * 2 ≤ (i 1).val ∧ (i 1).val < win1_3.index ⟨(i 0).val / 5000, ht⟩ (1 : Fin 2) * 2 + 2
    rw [e7]
    omega

theorem final1 (c : Dev nD) : (dat1 (F := Ideal) V c).arrAt 3 cfg1.N = Cert.Spec.G1 (V c main_v44) (V c main_v45) (V c main_arg4) := by
  exact (dat1 (F := Ideal) V c).arrAt_eq_of_cover 3 (Cert.Spec.G1 (V c main_v44) (V c main_v45) (V c main_arg4))
    (fun t _ => flushed_eq V c t) bands_cover

end Cert.KernelIdeal.Reg1

end
-- ==== Proof.Reg2.lean ====
import proofs.«143023_j88502096101846_1_alg».proof.Proof.Gen.KernelIdeal.Frame
import proofs.«143023_j88502096101846_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.SL.Sem Idealize.ShloMosaic.ValueIdx
open Cert.KernelIdeal Cert.KernelIdeal.Gen
open scoped BigOperators

/-! ## A kept unit column: the two layout forms a row reduction with its axis kept needs -/

/-- An `[a]` array viewed as the column `[a, 1]` reads, at `(i, u)`, the operand at `i`: the two row-major
    positions are `i` and `i · 1 + 0`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One row of a block -/

/-- The log-softmax of a row of two logits at column `q`, in the order the kernel takes it:
    `z q − (m + log Σ_k exp (z k − m))` with `m` the row's maximum. -/
def lsm (z : Fin 2 → EReal) (q : Fin 2) : EReal :=
  z q - (Cert.Spec.rowMax z + Ideal.log (∑ k : Fin 2, Ideal.exp (z k - Cert.Spec.rowMax z)))

/-- The whole-array function is that row function of the array's row of biased logits. -/
theorem G2_apply (a : Cert.Spec.SNx2.Idx → EReal) (b : Cert.Spec.S1x2.Idx → EReal) (i : Cert.Spec.SNx2.Idx) :
    Cert.Spec.G2 a b i = lsm (Cert.Spec.zrow a b ⟨(i 0).val, (i 0).isLt⟩) ⟨(i 1).val, (i 1).isLt⟩ := rfl

/-- The index of a `[5000, 2]` block over row `p` of the reduced `[5000]` vector, with column `k` put back, is `(p, k)`. -/
theorem lift_row (h : S5000x2.Reduces [1] S5000) (p : Fin 5000) (k : Fin 2) : h.lift (ix1 p) k = ix2 p k := by
  funext a; apply Fin.ext
  match a with
  | ⟨0, _⟩ => rfl
  | ⟨1, _⟩ => rfl

/-- The maximum over the columns, read at row `p`: the fold of `max` from minus infinity's word over the row. -/
theorem rowmax_apply (z : FVec Ideal S5000x2 .f32) (h : S5000x2.Reduces [1] S5000) (hφ : FKind.Formats .f32)
    (hacc : (0xFF800000#32 : BitVec 32) = FKind.maximumf.neutral .f32 hφ) (p : Fin 5000) :
    multiReduction (F := Ideal) .maximumf [1] S5000 z 0xFF800000#32 h hφ hacc (ix1 p)
      = Cert.Spec.rowMax (fun k => z (ix2 p k)) := by
  refine (Ideal.multiReduction_maximumf_single z _ h hφ hacc (ix1 p)).trans ?_
  have hl : (z ∘ h.lift (ix1 p)) = fun k : Fin 2 => z (ix2 p k) := funext fun k => congrArg z (lift_row h p k)
  rw [hl]
  rfl

/-- The sum over the columns, read at row `p`. -/
theorem rowsum_apply (w : FVec Ideal S5000x2 .f32) (h : S5000x2.Reduces [1] S5000) (hφ : FKind.Formats .f32)
    (hacc : (0x00000000#32 : BitVec 32) = FKind.add.neutral .f32 hφ) (p : Fin 5000) :
    multiReduction (F := Ideal) .add [1] S5000 w 0x00000000#32 h hφ hacc (ix1 p) = ∑ k : Fin 2, w (ix2 p k) := by
  refine (Ideal.multiReduction_add_single w _ h hφ hacc (ix1 p)).trans ?_
  exact Finset.sum_congr rfl fun k _ => congrArg w (lift_row h p k)

/-! ## The body's payload at an index -/

/-- The biased logits of a block: row `p`, column `k` of the block plus the bias row's entry `k`. -/
theorem logits_apply (x0 : FVec Ideal S5000x2 .f32) (x1 : FVec Ideal S1x2 .f32) (h1 : S5000x2.ShapeCasts S5000x2)
    (h2 : S1x2.ShapeCasts S1x2) (h3 : S1x2.Broadcasts S5000x2) (p : Fin 5000) (k : Fin 2) :
    addf (F := Ideal) (shapeCast S5000x2 x0 h1) (broadcastTo S5000x2 (shapeCast S1x2 x1 h2) h3) (ix2 p k)
      = x0 (ix2 p k) + x1 (ix2 (0 : Fin 1) k) := by
  show shapeCast S5000x2 x0 h1 (ix2 p k) + broadcastTo S5000x2 (shapeCast S1x2 x1 h2) h3 (ix2 p k) = _
  rw [shapeCast_self, shapeCast_self, broadcastTo_1b_ab_apply]

/-- From the block of logits `z` on, the body's result at `(p, q)` is the row function of row `p` of `z`: the
    maximum and the sum are taken over the two columns, kept as a unit column and spread back over them. -/
theorem lsm_block_apply (z : FVec Ideal S5000x2 .f32) (hr : S5000x2.Reduces [1] S5000) (hφ : FKind.Formats .f32)
    (hm : (0xFF800000#32 : BitVec 32) = FKind.maximumf.neutral .f32 hφ)
    (ha : (0x00000000#32 : BitVec 32) = FKind.add.neutral .f32 hφ)
    (hc : S5000.ShapeCasts S5000x1) (hb : S5000x1.Broadcasts S5000x2) (p : Fin 5000) (q : Fin 2) :
    subf (F := Ideal) z (broadcastTo S5000x2
        (addf (F := Ideal) (shapeCast S5000x1 (multiReduction (F := Ideal) .maximumf [1] S5000 z 0xFF800000#32 hr hφ hm) hc)
          (log (F := Ideal) (shapeCast S5000x1 (multiReduction (F := Ideal) .add [1] S5000
            (exp (F := Ideal) (subf (F := Ideal) z (broadcastTo S5000x2
              (shapeCast S5000x1 (multiReduction (F := Ideal) .maximumf [1] S5000 z 0xFF800000#32 hr hφ hm) hc) hb)))
            0x00000000#32 hr hφ ha) hc))) hb) (ix2 p q)
      = lsm (fun k => z (ix2 p k)) q := by
  -- the column of row maxima, read at row `p`
  have hmax : ∀ u : Fin 1, shapeCast S5000x1 (multiReduction (F := Ideal) .maximumf [1] S5000 z 0xFF800000#32 hr hφ hm) hc (ix2 p u)
      = Cert.Spec.rowMax (fun k => z (ix2 p k)) := fun u =>
    (shapeCast_col_apply _ hc p u).trans (rowmax_apply z hr hφ hm p)
  -- the shifted exponentials of row `p`
  have hexp : ∀ k : Fin 2, exp (F := Ideal) (subf (F := Ideal) z (broadcastTo S5000x2
        (shapeCast S5000x1 (multiReduction (F := Ideal) .maximumf [1] S5000 z 0xFF800000#32 hr hφ hm) hc) hb)) (ix2 p k)
      = Ideal.exp (z (ix2 p k) - Cert.Spec.rowMax (fun k => z (ix2 p k))) := fun k => by
    show Ideal.exp (z (ix2 p k) - broadcastTo S5000x2 _ hb (ix2 p k)) = _
    rw [broadcastTo_col_apply, hmax]
  -- the column of their sums, read at row `p`
  have hsum : ∀ u : Fin 1, shapeCast S5000x1 (multiReduction (F := Ideal) .add [1] S5000
        (exp (F := Ideal) (subf (F := Ideal) z (broadcastTo S5000x2
          (shapeCast S5000x1 (multiReduction (F := Ideal) .maximumf [1] S5000 z 0xFF800000#32 hr hφ hm) hc) hb)))
        0x00000000#32 hr hφ ha) hc (ix2 p u)
      = ∑ k : Fin 2, Ideal.exp (z (ix2 p k) - Cert.Spec.rowMax (fun k => z (ix2 p k))) := fun u =>
    ((shapeCast_col_apply _ hc p u).trans (rowsum_apply _ hr hφ ha p)).trans (Finset.sum_congr rfl fun k _ => hexp k)
  show z (ix2 p q) - broadcastTo S5000x2 _ hb (ix2 p q) = _
  rw [broadcastTo_col_apply]
  show z (ix2 p q) - (shapeCast S5000x1 _ hc (ix2 p (0 : Fin 1)) + Ideal.log (shapeCast S5000x1 _ hc (ix2 p (0 : Fin 1)))) = _
  rw [hmax, hsum]
  rfl

/-- THE BODY'S PAYLOAD AT `(p, q)`: the row function of the block's row `p` of biased logits, at column `q`. -/
theorem pay_apply (x0 : FVec Ideal S5000x2 .f32) (x1 : FVec Ideal S1x2 .f32) (p : Fin 5000) (q : Fin 2) :
    k2_pay1 (F := Ideal) x0 x1 (ix2 p q) = lsm (fun k => x0 (ix2 p k) + x1 (ix2 (0 : Fin 1) k)) q := by
  have hz : (fun k : Fin 2 => addf (F := Ideal) (shapeCast S5000x2 x0 shapeCasts_S5000x2_S5000x2)
        (broadcastTo S5000x2 (shapeCast S1x2 x1 shapeCasts_S1x2_S1x2) broadcasts_S1x2_S5000x2) (ix2 p k))
      = fun k => x0 (ix2 p k) + x1 (ix2 (0 : Fin 1) k) := funext fun k => logits_apply x0 x1 _ _ _ p k
  rw [← hz]
  exact lsm_block_apply _ _ _ _ _ _ _ p q

/-! ## From blocks to the array -/

variable (V : (c : Dev nD) → (b : Ref sig .tc) → Buf (Elt Ideal) ((c : Thread nD τ).loc b))

/-- The body's one store and its two loads start at the origin of their buffers. -/
theorem origin : (![0, 0] : Fin 2 → Nat) = fun _ => 0 :=
  funext fun a => match a with | ⟨0, _⟩ => rfl | ⟨1, _⟩ => rfl

/-- The index maps over the twenty grid points: the logits' block moves with the output's along the rows, the bias
    row stays put, no map moves along the columns, and the output's block of rows at point `t` is block `t`. -/
theorem index_facts : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- WHAT POINT `t` WRITES BACK is block `t` of the log-softmax of the two input arrays: at `(p, q)` of the block the
    payload is the row function of the logits' block's row `p`, which is the array's row `5000·t + p`, biased by the
    one bias row. -/
theorem flushed_eq (c : Dev nD) (t : Fin cfg2.N) :
    (dat2 (F := Ideal) V c).flushed 2 t
      = ((cfg2.win 2).blk t).view.read (Elt Ideal) (Cert.Spec.G2 (V c main_v58) (V c main_v59)) := by
  show (cfg2.win 2).cut (grid2.coords t) ((dat2 V c).after 2 t) = _
  rw [after2_2]
  unfold out2_2
  rw [View.canon_unit_zero origin]
  simp only [View.ld_unit_zero (S := S5000x2) origin, View.ld_unit_zero (S := S1x2) origin]
  obtain ⟨e0, e1, e2, e3, e4, e5⟩ := index_facts t
  refine funext fun (j : S5000x2.Idx) => ?_
  obtain ⟨p, q, rfl⟩ : ∃ (p : Fin 5000) (q : Fin 2), j = ix2 p q := ⟨j 0, j 1, eq_ix2 j⟩
  show k2_pay1 (F := Ideal) (iblk2 V c 0 t) (iblk2 V c 1 t) (ix2 p q)
    = Cert.Spec.G2 (V c main_v58) (V c main_v59) (((cfg2.win 2).blk t).view.emb (ix2 p q))
  refine (pay_apply (iblk2 V c 0 t) (iblk2 V c 1 t) p q).trans ?_
  rw [G2_apply]
  refine congrArg₂ lsm (funext fun k => ?_) (Fin.ext ?_)
  · refine congrArg₂ (· + ·) ?_ ?_
    · show V c main_v58 (((cfg2.win 0).blk t).view.emb (ix2 p k)) = V c main_v58 (ix2 _ k)
      refine congrArg (V c main_v58) (funext fun a => Fin.ext ?_)
      match a with
      | ⟨0, _⟩ =>
        show win2_0.index t (0 : Fin 2) * 5000 + 1 * p.val = win2_2.index t (0 : Fin 2) * 5000 + 1 * p.val
        omega
      | ⟨1, _⟩ =>
        show win2_0.index t (1 : Fin 2) * 2 + 1 * k.val = k.val
        omega
    · show V c main_v59 (((cfg2.win 1).blk t).view.emb (ix2 (0 : Fin 1) k)) = V c main_v59 (ix2 (0 : Fin 1) k)
      refine congrArg (V c main_v59) (funext fun a => Fin.ext ?_)
      match a with
      | ⟨0, _⟩ =>
        show win2_1.index t (0 : Fin 2) * 1 + 1 * 0 = 0
        omega
      | ⟨1, _⟩ =>
        show win2_1.index t (1 : Fin 2) * 2 + 1 * k.val = k.val
        omega
  · show q.val = win2_2.index t (1 : Fin 2) * 2 + 1 * q.val
    omega

/-- An index of the output array is in point `t`'s block iff each coordinate is in the block's range on its axis. -/
theorem mem_blk (t : Fin cfg2.N) (i : S100000x2.Idx) :
    i ∈ ((cfg2.win 2).blk t).view.set ↔ ∀ a : Fin 2, win2_2.index t a * S5000x2.size a ≤ (i a).val
      ∧ (i a).val < win2_2.index t a * S5000x2.size a + S5000x2.size a := by
  show i ∈ ((View.whole main_v60).slice (win2_2.rect t)).set ↔ _
  rw [View.set_slice_whole, Rect.mem_set_unit]
  exact Iff.rfl

/-- The twenty blocks of 5000 rows tile the 100000 rows: row `r` lies in the block of point `r / 5000`, whatever the
    column. -/
theorem cover (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  have hN : grid2.N = 20 := N_2
  have ht : (i 0).val / 5000 < grid2.N := by omega
  obtain ⟨e0, e1, e2, e3, e4, e5⟩ := index_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    have e4' : win2_2.index ⟨(i 0).val / 5000, ht⟩ (0 : Fin 2) = (i 0).val / 5000 := e4
    omega
  | ⟨1, _⟩ =>
    show win2_2.index ⟨(i 0).val / 5000, ht⟩ (1 : Fin 2) * 2 ≤ (i 1).val
      ∧ (i 1).val < win2_2.index ⟨(i 0).val / 5000, ht⟩ (1 : Fin 2) * 2 + 2
    omega

theorem final2 (c : Dev nD) : (dat2 (F := Ideal) V c).arrAt 2 cfg2.N = Cert.Spec.G2 (V c main_v58) (V c main_v59) := by
  exact (dat2 (F := Ideal) V c).arrAt_eq_of_cover 2 (Cert.Spec.G2 (V c main_v58) (V c main_v59))
    (fun t _ => flushed_eq V c t) cover

end Cert.KernelIdeal.Reg2

end
-- ==== Proof.KVal.lean ====
import proofs.«143023_j88502096101846_1_alg».proof.Proof.Gen.KernelIdeal.Frame
import proofs.«143023_j88502096101846_1_alg».proof.Proof.Spec
import proofs.«143023_j88502096101846_1_alg».proof.Proof.Reg0
import proofs.«143023_j88502096101846_1_alg».proof.Proof.Reg1
import proofs.«143023_j88502096101846_1_alg».proof.Proof.Reg2
import Idealize.ShloMosaic.Lib.StableHlo.Run

set_option maxRecDepth 16384

noncomputable section

namespace Cert.KernelIdeal.KVal

open Idealize.ShloMosaic Idealize.ShloMosaic.TcCoe Idealize.SL.Sem
open Cert.KernelIdeal Cert.KernelIdeal.Gen

/-! ## The host stretches as functions of what they read -/

/-- The source node of every edge, self loops appended. -/
def src (ei : IVec S2x6400000 32) : IVec S6500000 32 :=
  concatenate S6500000 0 [⟨S6400000, shapeCast _ (extractStridedSlice S1x6400000 ![0, 0] ei slices_S2x6400000_S1x6400000_0_0) shapeCasts_S1x6400000_S6400000⟩, ⟨S100000, iotaInDim S100000 32 0⟩] concatenates_S6400000_S100000_S6500000_d0

/-- The destination node of every edge, self loops appended. -/
def dst (ei : IVec S2x6400000 32) : IVec S6500000 32 :=
  concatenate S6500000 0 [⟨S6400000, shapeCast _ (extractStridedSlice S1x6400000 ![1, 0] ei slices_S2x6400000_S1x6400000_1_0) shapeCasts_S1x6400000_S6400000⟩, ⟨S100000, iotaInDim S100000 32 0⟩] concatenates_S6400000_S100000_S6500000_d0

/-- A column of gather indices: negative entries wrapped by the node count, then laid out as a column. -/
def wrapCol (v : IVec S6500000 32) : IVec S6500000x1 32 :=
  broadcastInDim S6500000x1 ![0] bcast_S6500000_S6500000x1_0
    (select (cmpi .slt v (broadcastInDim S6500000 ![] bcast_S_S6500000 (constantI S_ 32 0#32)))
      (addi v (broadcastInDim S6500000 ![] bcast_S_S6500000 (constantI S_ 32 100000#32))) v)

/-- The scatter indices: the destinations as a column. -/
def dstCol (ei : IVec S2x6400000 32) : IVec S6500000x1 32 :=
  broadcastInDim S6500000x1 ![0] bcast_S6500000_S6500000x1_0 (dst ei)

/-- Every node's in-degree, self loop included. -/
def deg (ei : IVec S2x6400000 32) : FVec Ideal S100000 .f32 :=
  Host.scatterAdd scatter_S100000_S6500000x1_S6500000_n_0_0_1
    (broadcastInDim S100000 ![] bcast_S_S100000 (constant S_ .f32 0x00000000#32)) (dstCol ei)
    (broadcastInDim S6500000 ![] bcast_S_S6500000 (constant S_ .f32 0x3F800000#32))

/-- The inverse square root of the degree where it is positive, zero elsewhere. -/
def dinv (ei : IVec S2x6400000 32) : FVec Ideal S100000 .f32 :=
  select (cmpf .ogt (deg ei) (broadcastInDim S100000 ![] bcast_S_S100000 (constant S_ .f32 0x00000000#32)))
    (Host.powf (deg ei) (broadcastInDim S100000 ![] bcast_S_S100000 (constant S_ .f32 0xBF000000#32)))
    (broadcastInDim S100000 ![] bcast_S_S100000 (id (constant S_ .f32 0x00000000#32)))

/-- Every edge's normalisation, as a column. -/
def normCol (ei : IVec S2x6400000 32) : FVec Ideal S6500000x1 .f32 :=
  broadcastInDim S6500000x1 ![0] bcast_S6500000_S6500000x1_0
    (mulf (Host.gather gather_S100000_S6500000x1_S6500000_n_0_n_n_0_1_1 (dinv ei) (wrapCol (src ei)))
      (Host.gather gather_S100000_S6500000x1_S6500000_n_0_n_n_0_1_1 (dinv ei) (wrapCol (dst ei))))

/-- Aggregation of sixteen-wide node rows: gather each edge's source row, scale it, add it into the destination row. -/
def agg16 (ei : IVec S2x6400000 32) (h : FVec Ideal S100000x16 .f32) : FVec Ideal S100000x16 .f32 :=
  Host.scatterAdd scatter_S100000x16_S6500000x1_S6500000x16_1_0_0_1
    (broadcastInDim S100000x16 ![] bcast_S_S100000x16 (constant S_ .f32 0x00000000#32)) (dstCol ei)
    (mulf (Host.gather gather_S100000x16_S6500000x1_S6500000x16_1_0_n_n_0_1_116 h (wrapCol (src ei)))
      (broadcastInDim S6500000x16 ![0, 1] bcast_S6500000x1_S6500000x16_0_1 (normCol ei)))

/-- Aggregation of two-wide node rows. -/
def agg2 (ei : IVec S2x6400000 32) (h : FVec Ideal S100000x2 .f32) : FVec Ideal S100000x2 .f32 :=
  Host.scatterAdd scatter_S100000x2_S6500000x1_S6500000x2_1_0_0_1
    (broadcastInDim S100000x2 ![] bcast_S_S100000x2 (constant S_ .f32 0x00000000#32)) (dstCol ei)
    (mulf (Host.gather gather_S100000x2_S6500000x1_S6500000x2_1_0_n_n_0_1_12 h (wrapCol (src ei)))
      (broadcastInDim S6500000x2 ![0, 1] bcast_S6500000x1_S6500000x2_0_1 (normCol ei)))

/-- The whole program's result as one function of the six arguments. -/
def result (x : FVec Ideal S100000x1 .f32) (ei : IVec S2x6400000 32) (w1 : FVec Ideal S1x16 .f32) (b1 : FVec Ideal S16 .f32)
    (w2 : FVec Ideal S16x2 .f32) (b2 : FVec Ideal S2 .f32) : FVec Ideal S100000x2 .f32 :=
  Cert.Spec.G2 (agg2 ei (Cert.Spec.G1 (agg16 ei (Cert.Spec.G0 x w1)) (shapeCast S1x16 b1 shapeCasts_S16_S1x16) w2))
    (shapeCast S1x2 b2 shapeCasts_S2_S1x2)

/-! ## Each host stretch, from arbitrary entry contents -/

/-- A buffer that no operation of a stretch writes is read after the stretch as before it. -/
local macro "unwritten" : tactic => `(tactic| (
  refine StableHlo.after_of_forall_not_mem _ _ (List.forall_iff_forall_mem.mp ?_)
  simp only [hostOps0, hostOps0_1, hostOps0_2, hostOps1, hostOps2, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

section Stretches

variable (V : Valuation τ sig (Elt Ideal))

/-! ### The first stretch: edge endpoints, degree, its comparison with zero and its inverse square root -/

theorem ops0_v3 : StableHlo.after (hostOps0 (F := Ideal)) V (Proc.devRef .tc main_v3)
    = src (V (Proc.devRef .tc main_arg1)) := by
  after_results; rfl

theorem ops0_v6 : StableHlo.after (hostOps0 (F := Ideal)) V (Proc.devRef .tc main_v6)
    = dst (V (Proc.devRef .tc main_arg1)) := by
  after_results; rfl

theorem ops0_v12 : StableHlo.after (hostOps0 (F := Ideal)) V (Proc.devRef .tc main_v12)
    = cmpf .ogt (deg (V (Proc.devRef .tc main_arg1)))
        (broadcastInDim S100000 ![] bcast_S_S100000 (constant (F := Ideal) S_ .f32 0x00000000#32)) := by
  after_results; rfl

theorem ops0_v14 : StableHlo.after (hostOps0 (F := Ideal)) V (Proc.devRef .tc main_v14)
    = Host.powf (deg (V (Proc.devRef .tc main_arg1)))
        (broadcastInDim S100000 ![] bcast_S_S100000 (constant (F := Ideal) S_ .f32 0xBF000000#32)) := by
  after_results; rfl

theorem ops0_cst3 : StableHlo.after (hostOps0 (F := Ideal)) V (Proc.devRef .tc main_cst_3)
    = constant (F := Ideal) S_ .f32 0x00000000#32 := by
  after_results

theorem ops0_keep (b : Ref sig .tc) (hb : b ∈ [main_arg0, main_arg1, main_arg2, main_arg3, main_arg4, main_arg5]) :
    StableHlo.after (hostOps0 (F := Ideal)) V (Proc.devRef .tc b) = V (Proc.devRef .tc b) := by
  simp only [List.mem_cons, List.not_mem_nil, or_false] at hb
  rcases hb with rfl | rfl | rfl | rfl | rfl | rfl <;> unwritten

/-! ### The second stretch: the inverse square root kept where the degree is positive -/

theorem ops01_v15 : StableHlo.after (hostOps0_1 (F := Ideal)) V (Proc.devRef .tc main_v15)
    = select (V (Proc.devRef .tc main_v12)) (V (Proc.devRef .tc main_v14))
        (broadcastInDim S100000 ![] bcast_S_S100000 (id (V (Proc.devRef .tc main_cst_3)))) := by
  after_results; rfl

theorem ops01_keep (b : Ref sig .tc)
    (hb : b ∈ [main_arg0, main_arg1, main_arg2, main_arg3, main_arg4, main_arg5, main_v3, main_v6]) :
    StableHlo.after (hostOps0_1 (F := Ideal)) V (Proc.devRef .tc b) = V (Proc.devRef .tc b) := by
  simp only [List.mem_cons, List.not_mem_nil, or_false] at hb
  rcases hb with rfl | rfl | rfl | rfl | rfl | rfl | rfl | rfl <;> unwritten

/-! ### The third stretch: every edge's normalisation -/

theorem ops02_v31 : StableHlo.after (hostOps0_2 (F := Ideal)) V (Proc.devRef .tc main_v31)
    = (broadcastInDim S6500000x1 ![0] bcast_S6500000_S6500000x1_0
        (mulf (Host.gather gather_S100000_S6500000x1_S6500000_n_0_n_n_0_1_1 (V (Proc.devRef .tc main_v15) : FVec Ideal S100000 .f32)
            (wrapCol (V (Proc.devRef .tc main_v3))))
          (Host.gather gather_S100000_S6500000x1_S6500000_n_0_n_n_0_1_1 (V (Proc.devRef .tc main_v15) : FVec Ideal S100000 .f32)
            (wrapCol (V (Proc.devRef .tc main_v6))))) : FVec Ideal S6500000x1 .f32) := by
  after_results_simp; rfl

theorem ops02_keep (b : Ref sig .tc)
    (hb : b ∈ [main_arg0, main_arg1, main_arg2, main_arg3, main_arg4, main_arg5, main_v3, main_v6]) :
    StableHlo.after (hostOps0_2 (F := Ideal)) V (Proc.devRef .tc b) = V (Proc.devRef .tc b) := by
  simp only [List.mem_cons, List.not_mem_nil, or_false] at hb
  rcases hb with rfl | rfl | rfl | rfl | rfl | rfl | rfl | rfl <;> unwritten

/-! ### The stretch between the first two regions: the sixteen-wide aggregation and the first bias as a row -/

theorem ops1_v44 : StableHlo.after (hostOps1 (F := Ideal)) V (Proc.devRef .tc main_v44)
    = Host.scatterAdd scatter_S100000x16_S6500000x1_S6500000x16_1_0_0_1
        (broadcastInDim S100000x16 ![] bcast_S_S100000x16 (constant (F := Ideal) S_ .f32 0x00000000#32))
        (broadcastInDim S6500000x1 ![0] bcast_S6500000_S6500000x1_0 (V (Proc.devRef .tc main_v6)))
        (mulf (Host.gather gather_S100000x16_S6500000x1_S6500000x16_1_0_n_n_0_1_116 (V (Proc.devRef .tc main_v32) : FVec Ideal S100000x16 .f32)
            (wrapCol (V (Proc.devRef .tc main_v3))))
          (broadcastInDim S6500000x16 ![0, 1] bcast_S6500000x1_S6500000x16_0_1 (V (Proc.devRef .tc main_v31) : FVec Ideal S6500000x1 .f32))) := by
  after_results_simp; rfl

theorem ops1_v45 : StableHlo.after (hostOps1 (F := Ideal)) V (Proc.devRef .tc main_v45)
    = shapeCast S1x16 (V (Proc.devRef .tc main_arg3)) shapeCasts_S16_S1x16 := by
  after_results; rfl

theorem ops1_keep (b : Ref sig .tc)
    (hb : b ∈ [main_arg4, main_arg5, main_v3, main_v6, main_v31]) :
    StableHlo.after (hostOps1 (F := Ideal)) V (Proc.devRef .tc b) = V (Proc.devRef .tc b) := by
  simp only [List.mem_cons, List.not_mem_nil, or_false] at hb
  rcases hb with rfl | rfl | rfl | rfl | rfl <;> unwritten

/-! ### The stretch between the last two regions: the two-wide aggregation and the second bias as a row -/

theorem ops2_v58 : StableHlo.after (hostOps2 (F := Ideal)) V (Proc.devRef .tc main_v58)
    = Host.scatterAdd scatter_S100000x2_S6500000x1_S6500000x2_1_0_0_1
        (broadcastInDim S100000x2 ![] bcast_S_S100000x2 (constant (F := Ideal) S_ .f32 0x00000000#32))
        (broadcastInDim S6500000x1 ![0] bcast_S6500000_S6500000x1_0 (V (Proc.devRef .tc main_v6)))
        (mulf (Host.gather gather_S100000x2_S6500000x1_S6500000x2_1_0_n_n_0_1_12 (V (Proc.devRef .tc main_v46) : FVec Ideal S100000x2 .f32)
            (wrapCol (V (Proc.devRef .tc main_v3))))
          (broadcastInDim S6500000x2 ![0, 1] bcast_S6500000x1_S6500000x2_0_1 (V (Proc.devRef .tc main_v31) : FVec Ideal S6500000x1 .f32))) := by
  after_results_simp; rfl

theorem ops2_v59 : StableHlo.after (hostOps2 (F := Ideal)) V (Proc.devRef .tc main_v59)
    = shapeCast S1x2 (V (Proc.devRef .tc main_arg5)) shapeCasts_S2_S1x2 := by
  after_results; rfl

end Stretches

variable (m : (ℓ : Loc nD τ sig) → Buf (Elt Ideal) ℓ) (ρ : Dev nD → PrngReg)

/-! ## The run, one boundary at a time -/

section Run

variable (c : Dev nD)

/-! ### After the first stretch -/

theorem W1_v3 : W1 m ρ c (Proc.devRef .tc main_v3) = src (m ((c : Thread nD τ).loc main_arg1)) := ops0_v3 (W0 m ρ c)
theorem W1_v6 : W1 m ρ c (Proc.devRef .tc main_v6) = dst (m ((c : Thread nD τ).loc main_arg1)) := ops0_v6 (W0 m ρ c)
theorem W1_v12 : W1 m ρ c (Proc.devRef .tc main_v12)
    = cmpf .ogt (deg (m ((c : Thread nD τ).loc main_arg1))) (broadcastInDim S100000 ![] bcast_S_S100000 (constant (F := Ideal) S_ .f32 0x00000000#32)) :=
  ops0_v12 (W0 m ρ c)
theorem W1_v14 : W1 m ρ c (Proc.devRef .tc main_v14)
    = Host.powf (deg (m ((c : Thread nD τ).loc main_arg1))) (broadcastInDim S100000 ![] bcast_S_S100000 (constant (F := Ideal) S_ .f32 0xBF000000#32)) :=
  ops0_v14 (W0 m ρ c)
theorem W1_cst3 : W1 m ρ c (Proc.devRef .tc main_cst_3) = constant (F := Ideal) S_ .f32 0x00000000#32 := ops0_cst3 (W0 m ρ c)
theorem W1_arg (b : Ref sig .tc) (hb : b ∈ [main_arg0, main_arg1, main_arg2, main_arg3, main_arg4, main_arg5]) :
    W1 m ρ c (Proc.devRef .tc b) = m ((c : Thread nD τ).loc b) := ops0_keep (W0 m ρ c) b hb

/-! ### After the second stretch -/

theorem W2_v15 : W2 m ρ c (Proc.devRef .tc main_v15) = dinv (m ((c : Thread nD τ).loc main_arg1)) := by
  show StableHlo.after (hostOps0_1 (F := Ideal)) (W1 m ρ c) (Proc.devRef .tc main_v15) = _
  rw [ops01_v15, W1_v12, W1_v14, W1_cst3]; rfl
theorem W2_v3 : W2 m ρ c (Proc.devRef .tc main_v3) = src (m ((c : Thread nD τ).loc main_arg1)) :=
  (ops01_keep (W1 m ρ c) main_v3 (by simp)).trans (W1_v3 m ρ c)
theorem W2_v6 : W2 m ρ c (Proc.devRef .tc main_v6) = dst (m ((c : Thread nD τ).loc main_arg1)) :=
  (ops01_keep (W1 m ρ c) main_v6 (by simp)).trans (W1_v6 m ρ c)
theorem W2_arg (b : Ref sig .tc) (hb : b ∈ [main_arg0, main_arg1, main_arg2, main_arg3, main_arg4, main_arg5]) :
    W2 m ρ c (Proc.devRef .tc b) = m ((c : Thread nD τ).loc b) :=
  (ops01_keep (W1 m ρ c) b (List.mem_append_left _ hb)).trans (W1_arg m ρ c b hb)

/-! ### After the third stretch: the first region's entry -/

theorem W3_v31 : W3 m ρ c (Proc.devRef .tc main_v31) = normCol (m ((c : Thread nD τ).loc main_arg1)) := by
  show StableHlo.after (hostOps0_2 (F := Ideal)) (W2 m ρ c) (Proc.devRef .tc main_v31) = _
  rw [ops02_v31, W2_v15, W2_v3, W2_v6]; rfl
theorem W3_v3 : W3 m ρ c (Proc.devRef .tc main_v3) = src (m ((c : Thread nD τ).loc main_arg1)) :=
  (ops02_keep (W2 m ρ c) main_v3 (by simp)).trans (W2_v3 m ρ c)
theorem W3_v6 : W3 m ρ c (Proc.devRef .tc main_v6) = dst (m ((c : Thread nD τ).loc main_arg1)) :=
  (ops02_keep (W2 m ρ c) main_v6 (by simp)).trans (W2_v6 m ρ c)
theorem W3_arg (b : Ref sig .tc) (hb : b ∈ [main_arg0, main_arg1, main_arg2, main_arg3, main_arg4, main_arg5]) :
    W3 m ρ c (Proc.devRef .tc b) = m ((c : Thread nD τ).loc b) :=
  (ops02_keep (W2 m ρ c) b (List.mem_append_left _ hb)).trans (W2_arg m ρ c b hb)

/-! ### After the first region -/

theorem W4_v32 : W4 m ρ c (Proc.devRef .tc main_v32) = Cert.Spec.G0 (m ((c : Thread nD τ).loc main_arg0)) (m ((c : Thread nD τ).loc main_arg2)) := by
  refine (W4_arr m ρ c 2).trans ((Reg0.final0 (V3 m ρ) c).trans ?_)
  show Cert.Spec.G0 (W3 m ρ c (Proc.devRef .tc main_arg0)) (W3 m ρ c (Proc.devRef .tc main_arg2)) = _
  rw [W3_arg m ρ c main_arg0 (by simp), W3_arg m ρ c main_arg2 (by simp)]
theorem W4_v3 : W4 m ρ c (Proc.devRef .tc main_v3) = src (m ((c : Thread nD τ).loc main_arg1)) :=
  (W4_of_ne m ρ c main_v3 (by decide)).trans (W3_v3 m ρ c)
theorem W4_v6 : W4 m ρ c (Proc.devRef .tc main_v6) = dst (m ((c : Thread nD τ).loc main_arg1)) :=
  (W4_of_ne m ρ c main_v6 (by decide)).trans (W3_v6 m ρ c)
theorem W4_v31 : W4 m ρ c (Proc.devRef .tc main_v31) = normCol (m ((c : Thread nD τ).loc main_arg1)) :=
  (W4_of_ne m ρ c main_v31 (by decide)).trans (W3_v31 m ρ c)
theorem W4_arg3 : W4 m ρ c (Proc.devRef .tc main_arg3) = m ((c : Thread nD τ).loc main_arg3) :=
  (W4_of_ne m ρ c main_arg3 (by decide)).trans (W3_arg m ρ c main_arg3 (by simp))
theorem W4_arg4 : W4 m ρ c (Proc.devRef .tc main_arg4) = m ((c : Thread nD τ).loc main_arg4) :=
  (W4_of_ne m ρ c main_arg4 (by decide)).trans (W3_arg m ρ c main_arg4 (by simp))
theorem W4_arg5 : W4 m ρ c (Proc.devRef .tc main_arg5) = m ((c : Thread nD τ).loc main_arg5) :=
  (W4_of_ne m ρ c main_arg5 (by decide)).trans (W3_arg m ρ c main_arg5 (by simp))

/-! ### After the stretch between the first two regions: the second region's entry -/

theorem W5_v44 : W5 m ρ c (Proc.devRef .tc main_v44)
    = agg16 (m ((c : Thread nD τ).loc main_arg1)) (Cert.Spec.G0 (m ((c : Thread nD τ).loc main_arg0)) (m ((c : Thread nD τ).loc main_arg2))) := by
  show StableHlo.after (hostOps1 (F := Ideal)) (W4 m ρ c) (Proc.devRef .tc main_v44) = _
  rw [ops1_v44, W4_v6, W4_v32, W4_v3, W4_v31]; rfl
theorem W5_v45 : W5 m ρ c (Proc.devRef .tc main_v45) = shapeCast S1x16 (m ((c : Thread nD τ).loc main_arg3)) shapeCasts_S16_S1x16 := by
  show StableHlo.after (hostOps1 (F := Ideal)) (W4 m ρ c) (Proc.devRef .tc main_v45) = _
  rw [ops1_v45, W4_arg3]
theorem W5_arg4 : W5 m ρ c (Proc.devRef .tc main_arg4) = m ((c : Thread nD τ).loc main_arg4) :=
  (ops1_keep (W4 m ρ c) main_arg4 (by simp)).trans (W4_arg4 m ρ c)
theorem W5_arg5 : W5 m ρ c (Proc.devRef .tc main_arg5) = m ((c : Thread nD τ).loc main_arg5) :=
  (ops1_keep (W4 m ρ c) main_arg5 (by simp)).trans (W4_arg5 m ρ c)
theorem W5_v3 : W5 m ρ c (Proc.devRef .tc main_v3) = src (m ((c : Thread nD τ).loc main_arg1)) :=
  (ops1_keep (W4 m ρ c) main_v3 (by simp)).trans (W4_v3 m ρ c)
theorem W5_v6 : W5 m ρ c (Proc.devRef .tc main_v6) = dst (m ((c : Thread nD τ).loc main_arg1)) :=
  (ops1_keep (W4 m ρ c) main_v6 (by simp)).trans (W4_v6 m ρ c)
theorem W5_v31 : W5 m ρ c (Proc.devRef .tc main_v31) = normCol (m ((c : Thread nD τ).loc main_arg1)) :=
  (ops1_keep (W4 m ρ c) main_v31 (by simp)).trans (W4_v31 m ρ c)

/-! ### After the second region -/

theorem W6_v46 : W6 m ρ c (Proc.devRef .tc main_v46)
    = Cert.Spec.G1 (agg16 (m ((c : Thread nD τ).loc main_arg1)) (Cert.Spec.G0 (m ((c : Thread nD τ).loc main_arg0)) (m ((c : Thread nD τ).loc main_arg2))))
        (shapeCast S1x16 (m ((c : Thread nD τ).loc main_arg3)) shapeCasts_S16_S1x16) (m ((c : Thread nD τ).loc main_arg4)) := by
  refine (W6_arr m ρ c 3).trans ((Reg1.final1 (V5 m ρ) c).trans ?_)
  show Cert.Spec.G1 (W5 m ρ c (Proc.devRef .tc main_v44)) (W5 m ρ c (Proc.devRef .tc main_v45))
    (W5 m ρ c (Proc.devRef .tc main_arg4)) = _
  rw [W5_v44, W5_v45, W5_arg4]
theorem W6_v3 : W6 m ρ c (Proc.devRef .tc main_v3) = src (m ((c : Thread nD τ).loc main_arg1)) :=
  (W6_of_ne m ρ c main_v3 (by decide)).trans (W5_v3 m ρ c)
theorem W6_v6 : W6 m ρ c (Proc.devRef .tc main_v6) = dst (m ((c : Thread nD τ).loc main_arg1)) :=
  (W6_of_ne m ρ c main_v6 (by decide)).trans (W5_v6 m ρ c)
theorem W6_v31 : W6 m ρ c (Proc.devRef .tc main_v31) = normCol (m ((c : Thread nD τ).loc main_arg1)) :=
  (W6_of_ne m ρ c main_v31 (by decide)).trans (W5_v31 m ρ c)
theorem W6_arg5 : W6 m ρ c (Proc.devRef .tc main_arg5) = m ((c : Thread nD τ).loc main_arg5) :=
  (W6_of_ne m ρ c main_arg5 (by decide)).trans (W5_arg5 m ρ c)

/-! ### After the stretch between the last two regions: the third region's entry -/

theorem W7_v58 : W7 m ρ c (Proc.devRef .tc main_v58)
    = agg2 (m ((c : Thread nD τ).loc main_arg1)) (Cert.Spec.G1 (agg16 (m ((c : Thread nD τ).loc main_arg1)) (Cert.Spec.G0 (m ((c : Thread nD τ).loc main_arg0)) (m ((c : Thread nD τ).loc main_arg2))))
        (shapeCast S1x16 (m ((c : Thread nD τ).loc main_arg3)) shapeCasts_S16_S1x16) (m ((c : Thread nD τ).loc main_arg4))) := by
  show StableHlo.after (hostOps2 (F := Ideal)) (W6 m ρ c) (Proc.devRef .tc main_v58) = _
  rw [ops2_v58, W6_v6, W6_v46, W6_v3, W6_v31]; rfl
theorem W7_v59 : W7 m ρ c (Proc.devRef .tc main_v59) = shapeCast S1x2 (m ((c : Thread nD τ).loc main_arg5)) shapeCasts_S2_S1x2 := by
  show StableHlo.after (hostOps2 (F := Ideal)) (W6 m ρ c) (Proc.devRef .tc main_v59) = _
  rw [ops2_v59, W6_arg5]

end Run

/-- The result buffer after the last region, through the fold of the run: the program's function of the launch arguments. -/
theorem W8_result (c : Dev nD) :
    W8 m ρ c (Proc.devRef .tc main_v60)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W8_arr m ρ c 2).trans ((Reg2.final2 (V7 m ρ) c).trans ?_)
  show Cert.Spec.G2 (W7 m ρ c (Proc.devRef .tc main_v58)) (W7 m ρ c (Proc.devRef .tc main_v59)) = _
  rw [W7_v58, W7_v59]; rfl

end Cert.KernelIdeal.KVal

end
-- ==== Proof.Fin.lean ====
/-
  Entries that are real numbers: the predicate "every entry of a vector of extended reals is a real number", kept by
  every operation the two programs apply (gathers, accumulating scatters, broadcasts, products, sums, maxima, matrix
  products, selections, powers of reals), and the law a - (b + c) = (a - b) - c for real b and c.
-/
import Idealize.ShloMosaic.PureOps.Ideal
import Idealize.ShloMosaic.PureOps.Ideal.Laws
import Idealize.ShloMosaic.Lib.ValueIdx
import Mathlib.Data.EReal.Operations

noncomputable section

namespace Cert.FinLib

open Idealize.ShloMosaic
open scoped BigOperators

/-- Every entry is a real number (neither infinity). -/
def AllReal {ι : Type} (v : ι → EReal) : Prop := ∀ i, ∃ r : ℝ, v i = (r : EReal)

theorem allReal_of_comp {ι κ : Type} (v : ι → EReal) (f : κ → ι) (h : AllReal v) : AllReal (fun k => v (f k)) :=
  fun k => h (f k)

/-- A finite sum of real numbers is a real number. -/
theorem real_sum {κ : Type} (S : Finset κ) (f : κ → EReal) (hf : ∀ k ∈ S, ∃ r : ℝ, f k = (r : EReal)) :
    ∃ r : ℝ, ∑ k ∈ S, f k = (r : EReal) := by
  classical
  induction S using Finset.induction_on with
  | empty => exact ⟨0, by simp⟩
  | insert a S ha ih =>
    obtain ⟨r, hr⟩ := hf a (Finset.mem_insert_self a S)
    obtain ⟨t, ht⟩ := ih (fun k hk => hf k (Finset.mem_insert_of_mem hk))
    exact ⟨r + t, by rw [Finset.sum_insert ha, hr, ht, EReal.coe_add]⟩

/-- A real number plus a finite sum of real numbers is a real number. -/
theorem real_add_sum {κ : Type} {a : EReal} (S : Finset κ) (f : κ → EReal) (ha : ∃ r : ℝ, a = (r : EReal))
    (hf : ∀ k ∈ S, ∃ r : ℝ, f k = (r : EReal)) : ∃ r : ℝ, a + ∑ k ∈ S, f k = (r : EReal) := by
  obtain ⟨r, hr⟩ := ha
  obtain ⟨t, ht⟩ := real_sum S f hf
  exact ⟨r + t, by rw [hr, ht, EReal.coe_add]⟩

/-- A product of two real numbers is a real number. -/
theorem real_mul {a b : EReal} (ha : ∃ r : ℝ, a = (r : EReal)) (hb : ∃ r : ℝ, b = (r : EReal)) :
    ∃ r : ℝ, a * b = (r : EReal) := by
  obtain ⟨r, hr⟩ := ha
  obtain ⟨t, ht⟩ := hb
  exact ⟨r * t, by rw [hr, ht, EReal.coe_mul]⟩

/-- A sign-exponent-significand pattern whose exponent field is not all ones denotes a real number: it is a signed
    integer times a power of two. -/
theorem ieee_real (e m : Nat) {w : Nat} (b : BitVec w) (h : (b.extractLsb' m e).toNat ≠ 2 ^ e - 1) :
    ∃ r : ℝ, Ideal.ieee e m b = (r : EReal) := by
  unfold Ideal.ieee
  simp only [if_neg h]
  split_ifs <;> exact ⟨_, rfl⟩

theorem allReal_gather {s si t : Shape} {w : Nat} (d : GatherDims s si t) (x : FVec Ideal s .f32) (idx : IVec si w)
    (hx : AllReal x) : AllReal (Host.gather d x idx) := fun j => hx _

theorem allReal_scatterAdd {s si u : Shape} {w : Nat} (d : ScatterDims s si u) (x : FVec Ideal s .f32) (idx : IVec si w)
    (upd : FVec Ideal u .f32) (hx : AllReal x) (hu : AllReal upd) : AllReal (Host.scatterAdd (F := Ideal) d x idx upd) := fun i =>
  real_add_sum _ upd (hx i) (fun j _ => hu j)

theorem allReal_broadcastInDim {s t : Shape} (dims : Fin s.rank → Fin t.rank) (h : s.BroadcastsInDim t dims)
    (x : FVec Ideal s .f32) (hx : AllReal x) : AllReal (broadcastInDim t dims h x) := fun j => hx _

theorem allReal_mulf {s : Shape} (x y : FVec Ideal s .f32) (hx : AllReal x) (hy : AllReal y) : AllReal (mulf x y) := fun i => real_mul (hx i) (hy i)

theorem allReal_addf {s : Shape} (x y : FVec Ideal s .f32) (hx : AllReal x) (hy : AllReal y) : AllReal (addf x y) := by
  intro i
  obtain ⟨a, ha⟩ := hx i
  obtain ⟨b, hb⟩ := hy i
  exact ⟨a + b, by show x i + y i = _; rw [ha, hb, EReal.coe_add]⟩

theorem allReal_maximumf {s : Shape} (x y : FVec Ideal s .f32) (hx : AllReal x) (hy : AllReal y) : AllReal (maximumf x y) := by
  intro i
  show ∃ r : ℝ, max (x i) (y i) = (r : EReal)
  rcases le_total (x i) (y i) with h | h
  · rw [max_eq_right h]; exact hy i
  · rw [max_eq_left h]; exact hx i

theorem allReal_dotGeneral {sl sr so : Shape} (d : DotDims sl sr so) (prec : Option ContractPrecision)
    (l : FVec Ideal sl .f32) (r : FVec Ideal sr .f32) (hl : AllReal l) (hr : AllReal r) :
    AllReal (Host.dotGeneral d prec l r) := by
  intro j
  show ∃ t : ℝ, FloatOps.dotGeneral d prec .single l r j = (t : EReal)
  rw [Ideal.dotGeneral_apply]
  exact real_sum _ _ (fun k _ => real_mul (hl _) (hr _))

theorem allReal_select {s : Shape} (c : IVec s 1) (x y : FVec Ideal s .f32) (hx : AllReal x) (hy : AllReal y) :
    AllReal (select c x y) := by
  intro i
  show ∃ r : ℝ, (if c i = 1 then x i else y i) = (r : EReal)
  split_ifs
  · exact hx i
  · exact hy i

theorem allReal_powf {s : Shape} (x y : FVec Ideal s .f32) (hx : AllReal x) (hy : AllReal y) : AllReal (Host.powf x y) := by
  intro i
  obtain ⟨a, ha⟩ := hx i
  obtain ⟨b, hb⟩ := hy i
  exact ⟨Real.rpow a b, by show Ideal.pow (x i) (y i) = _; rw [ha, hb]; rfl⟩

/-- The constants the programs use: zero, one and minus one half. -/
theorem allReal_constant_zero (s : Shape) : AllReal (constant (F := Ideal) s .f32 0x00000000#32) := fun _ =>
  show ∃ r : ℝ, Ideal.ieee 8 23 0x00000000#32 = (r : EReal) from ieee_real 8 23 0x00000000#32 (by decide)
theorem allReal_constant_one (s : Shape) : AllReal (constant (F := Ideal) s .f32 0x3F800000#32) := fun _ =>
  show ∃ r : ℝ, Ideal.ieee 8 23 0x3F800000#32 = (r : EReal) from ieee_real 8 23 0x3F800000#32 (by decide)
theorem allReal_constant_neg_half (s : Shape) : AllReal (constant (F := Ideal) s .f32 0xBF000000#32) := fun _ =>
  show ∃ r : ℝ, Ideal.ieee 8 23 0xBF000000#32 = (r : EReal) from ieee_real 8 23 0xBF000000#32 (by decide)

/-- Reading the same entries under another shape keeps them real. -/
theorem allReal_shapeCast {s t : Shape} (x : FVec Ideal s .f32) (h : s.ShapeCasts t) (hx : AllReal x) :
    AllReal (shapeCast t x h) := fun j => hx _

/-- The exponential of a real number is a real number. -/
theorem allReal_exp {s : Shape} (x : FVec Ideal s .f32) (hx : AllReal x) : AllReal (Host.exp x) := by
  intro i
  obtain ⟨a, ha⟩ := hx i
  exact ⟨Real.exp a, by show Ideal.exp (x i) = _; rw [ha]; rfl⟩

/-- Subtracting a sum of two real numbers is subtracting one and then the other. -/
theorem sub_add_real (a : EReal) (b c : ℝ) : a - ((b : EReal) + (c : EReal)) = (a - (b : EReal)) - (c : EReal) := by
  induction a using EReal.rec with
  | bot => simp only [EReal.bot_sub]
  | coe a => rw [← EReal.coe_add, ← EReal.coe_sub, ← EReal.coe_sub, ← EReal.coe_sub]; congr 1; ring
  | top => rw [← EReal.coe_add, EReal.top_sub_coe, EReal.top_sub_coe, EReal.top_sub_coe]

end Cert.FinLib

end
-- ==== Proof.PreFin.lean ====
/-
  The precondition read back. The certificate assumes that the predicate
      all(|x| < inf) & all(|W1| < inf) & all(|b1| < inf) & all(|W2| < inf) & all(|b2| < inf)
  of the five float arguments is true on every device. Read in the extended reals this says that every entry of each
  float argument is a real number: the conjunction of one-bit words is 1 only if each conjunct is, an "all" that is 1
  had a 1 at every index, and the element fact |a| < +inf excludes both infinities, since |a| = max a (-a) is +inf at
  either of them.
-/
import proofs.«143023_j88502096101846_1_alg».proof.Defs
import proofs.«143023_j88502096101846_1_alg».proof.Proof.Gen.Pre_finite_inputs
import proofs.«143023_j88502096101846_1_alg».proof.Proof.Gen.KernelIdeal
import proofs.«143023_j88502096101846_1_alg».proof.Proof.Fin
import Idealize.ShloMosaic.Lib.ReduceAll

noncomputable section

namespace Cert.PreFin

open Idealize.ShloMosaic Idealize.ShloMosaic.TcCoe Idealize.SL.Sem Cert.KernelIdeal

/-- The scalar shape has exactly one index. -/
instance : Subsingleton Cert.Pre_finite_inputs.S_.Idx := ⟨fun a b => funext fun d => d.elim0⟩

/-- The pattern 0x7F800000 (exponent all ones, fraction zero, sign clear) denotes +inf. -/
theorem inf_pattern : Ideal.ofBits .f32 0x7F800000#32 = (⊤ : EReal) := by
  simp [Ideal.ofBits, Ideal.ieee]

/-- An extended real whose absolute value max a (-a) lies strictly below +inf is a real number. -/
theorem real_of_abs_lt_top (a : EReal) (h : max a (-a) < (⊤ : EReal)) : ∃ r : ℝ, a = (r : EReal) := by
  induction a using EReal.rec with
  | bot => exact absurd h (by simp)
  | coe r => exact ⟨r, rfl⟩
  | top => exact absurd h (by simp)

/-- The element fact: the one-bit word of the comparison |a| < +inf is 1 only at a real number. -/
theorem real_of_cmp (a : Ideal .f32)
    (h : FloatOps.cmpf .olt (FloatOps.hostAbsf a) (FloatOps.ofBits (F := Ideal) .f32 0x7F800000#32) = 1#1) :
    ∃ r : ℝ, a = (r : EReal) := by
  have hb : (FloatOps.ofBits (F := Ideal) .f32 0x7F800000#32) = (⊤ : EReal) := inf_pattern
  rw [hb] at h
  have h' : Ideal.cmp .olt (max a (-a)) (⊤ : EReal) = 1#1 := h
  unfold Ideal.cmp at h'
  by_cases hlt : max a (-a) < (⊤ : EReal)
  · exact real_of_abs_lt_top a hlt
  · simp [hlt] at h'

/-- all(|v| < inf) = 1 over an array of any shape: every entry of v is a real number. -/
theorem allReal_of_all_abs_lt_inf {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf v) (broadcastInDim s ![] hb (constant Cert.Pre_finite_inputs.S_ .f32 0x7F800000#32)))
          (constantI Cert.Pre_finite_inputs.S_ 1 1#1) hr hu j = 1#1) :
    Cert.FinLib.AllReal v := by
  intro i
  exact real_of_cmp (v i) (Host.reduce_andi_all _ _ hr hu j e i)

/-- Under the precondition every entry of each of the five float arguments is a real number, on every device. -/
theorem args_allReal (m : (ℓ : Loc nD τ sig) → Buf (Elt Ideal) ℓ) (hpre : Cert.Pre_KernelIdeal m) (c : Dev nD) :
    Cert.FinLib.AllReal (m ((c.tc : Thread nD τ).loc main_arg0)) ∧ Cert.FinLib.AllReal (m ((c.tc : Thread nD τ).loc main_arg2))
    ∧ Cert.FinLib.AllReal (m ((c.tc : Thread nD τ).loc main_arg3)) ∧ Cert.FinLib.AllReal (m ((c.tc : Thread nD τ).loc main_arg4))
    ∧ Cert.FinLib.AllReal (m ((c.tc : Thread nD τ).loc main_arg5)) := by
  have e := congrFun (hpre c) ValueIdx.ix0
  dsimp only [Cert.Pre_finite_inputs.fn, Cert.Pre_finite_inputs.fn_part1] at e
  simp only [andi, IntOp.andi_eq_one] at e
  obtain ⟨⟨⟨⟨h0, h2⟩, h3⟩, h4⟩, h5⟩ := e
  exact ⟨allReal_of_all_abs_lt_inf _ _ _ _ _ h0, allReal_of_all_abs_lt_inf _ _ _ _ _ h2,
    allReal_of_all_abs_lt_inf _ _ _ _ _ h3, allReal_of_all_abs_lt_inf _ _ _ _ _ h4,
    allReal_of_all_abs_lt_inf _ _ _ _ _ h5⟩

end Cert.PreFin

end
-- ==== Proof.Bridge1.lean ====
/-
  The kernel's program and the reference compute the same second aggregate: the outer product is the one-term matrix
  product, the aggregations are the same gathers, scalings and accumulating scatters, and the rectified, biased
  first aggregate times the second weight matrix is the reference's matrix product.
-/
import proofs.«143023_j88502096101846_1_alg».proof.Proof.RefRead
import proofs.«143023_j88502096101846_1_alg».proof.Proof.KVal
import Mathlib.Algebra.BigOperators.Fin

set_option maxRecDepth 16384

noncomputable section

namespace Cert.Bridge

open Idealize.ShloMosaic Idealize.ShloMosaic.TcCoe Idealize.SL.Sem Idealize.ShloMosaic.ValueIdx
open Cert.ReferenceIdeal Cert.ReferenceIdeal.Gen Cert.ReferenceIdeal.ReadP

/-! ## The edge lists, their wrapped and column forms

Both programs slice the two rows of the edge array, flatten them and append the self loops; both wrap a negative
entry by the node count and lay the list out as a column. The reference repeats these steps once per use; every
copy is the same expression as the kernel program's single one. -/

/-- The source list with the self loops appended is the reference's first concatenation. -/
theorem src_eq (x1 : (⟨S2x6400000, .i32⟩ : BufTy).Contents (Elt Ideal)) : Cert.KernelIdeal.KVal.src x1 = val_main_v3 (F := Ideal) x1 := by
  unfold Cert.KernelIdeal.KVal.src val_main_v3 val_main_v2 val_main_v1 val_main_v0
  rfl

/-- The destination list with the self loops appended is the reference's second concatenation. -/
theorem dst_eq (x1 : (⟨S2x6400000, .i32⟩ : BufTy).Contents (Elt Ideal)) : Cert.KernelIdeal.KVal.dst x1 = val_main_v6 (F := Ideal) x1 := by
  unfold Cert.KernelIdeal.KVal.dst val_main_v6 val_main_v5 val_main_v4 val_main_v0
  rfl

/-- The destination column, first layer's copy. -/
theorem dstCol_eq43 (x1 : (⟨S2x6400000, .i32⟩ : BufTy).Contents (Elt Ideal)) : Cert.KernelIdeal.KVal.dstCol x1 = val_main_v43 (F := Ideal) x1 := by
  unfold Cert.KernelIdeal.KVal.dstCol val_main_v43
  rw [dst_eq]

/-- The destination column, second layer's copy. -/
theorem dstCol_eq85 (x1 : (⟨S2x6400000, .i32⟩ : BufTy).Contents (Elt Ideal)) : Cert.KernelIdeal.KVal.dstCol x1 = val_main_v85 (F := Ideal) x1 := by
  unfold Cert.KernelIdeal.KVal.dstCol val_main_v85
  rw [dst_eq]

/-- The destination column under the first degree count. -/
theorem dstCol_eq10 (x1 : (⟨S2x6400000, .i32⟩ : BufTy).Contents (Elt Ideal)) : Cert.KernelIdeal.KVal.dstCol x1 = val_main_v10 (F := Ideal) x1 := by
  unfold Cert.KernelIdeal.KVal.dstCol val_main_v10
  rw [dst_eq]

/-- The destination column under the second degree count. -/
theorem dstCol_eq52 (x1 : (⟨S2x6400000, .i32⟩ : BufTy).Contents (Elt Ideal)) : Cert.KernelIdeal.KVal.dstCol x1 = val_main_v52 (F := Ideal) x1 := by
  unfold Cert.KernelIdeal.KVal.dstCol val_main_v52
  rw [dst_eq]

/-- The wrapped source column that gathers the first layer's rows. -/
theorem wrapSrc_eq37 (x1 : (⟨S2x6400000, .i32⟩ : BufTy).Contents (Elt Ideal)) : Cert.KernelIdeal.KVal.wrapCol (Cert.KernelIdeal.KVal.src x1) = val_main_v37 (F := Ideal) x1 := by
  rw [src_eq]
  unfold Cert.KernelIdeal.KVal.wrapCol val_main_v37 val_main_v36 val_main_v35 val_main_v34 val_main_v33 val_main_v32 val_main_c_7 val_main_c_8
  rfl

/-- The wrapped source column that gathers the second layer's rows. -/
theorem wrapSrc_eq79 (x1 : (⟨S2x6400000, .i32⟩ : BufTy).Contents (Elt Ideal)) : Cert.KernelIdeal.KVal.wrapCol (Cert.KernelIdeal.KVal.src x1) = val_main_v79 (F := Ideal) x1 := by
  rw [src_eq]
  unfold Cert.KernelIdeal.KVal.wrapCol val_main_v79 val_main_v78 val_main_v77 val_main_v76 val_main_v75 val_main_v74 val_main_c_19 val_main_c_20
  rfl

/-- The wrapped source column under the first normalisation. -/
theorem wrapSrc_eq22 (x1 : (⟨S2x6400000, .i32⟩ : BufTy).Contents (Elt Ideal)) : Cert.KernelIdeal.KVal.wrapCol (Cert.KernelIdeal.KVal.src x1) = val_main_v22 (F := Ideal) x1 := by
  rw [src_eq]
  unfold Cert.KernelIdeal.KVal.wrapCol val_main_v22 val_main_v21 val_main_v20 val_main_v19 val_main_v18 val_main_v17 val_main_c val_main_c_4
  rfl

/-- The wrapped source column under the second normalisation. -/
theorem wrapSrc_eq64 (x1 : (⟨S2x6400000, .i32⟩ : BufTy).Contents (Elt Ideal)) : Cert.KernelIdeal.KVal.wrapCol (Cert.KernelIdeal.KVal.src x1) = val_main_v64 (F := Ideal) x1 := by
  rw [src_eq]
  unfold Cert.KernelIdeal.KVal.wrapCol val_main_v64 val_main_v63 val_main_v62 val_main_v61 val_main_v60 val_main_v59 val_main_c_15 val_main_c_16
  rfl

/-- The wrapped destination column under the first normalisation. -/
theorem wrapDst_eq29 (x1 : (⟨S2x6400000, .i32⟩ : BufTy).Contents (Elt Ideal)) : Cert.KernelIdeal.KVal.wrapCol (Cert.KernelIdeal.KVal.dst x1) = val_main_v29 (F := Ideal) x1 := by
  rw [dst_eq]
  unfold Cert.KernelIdeal.KVal.wrapCol val_main_v29 val_main_v28 val_main_v27 val_main_v26 val_main_v25 val_main_v24 val_main_c_5 val_main_c_6
  rfl

/-- The wrapped destination column under the second normalisation. -/
theorem wrapDst_eq71 (x1 : (⟨S2x6400000, .i32⟩ : BufTy).Contents (Elt Ideal)) : Cert.KernelIdeal.KVal.wrapCol (Cert.KernelIdeal.KVal.dst x1) = val_main_v71 (F := Ideal) x1 := by
  rw [dst_eq]
  unfold Cert.KernelIdeal.KVal.wrapCol val_main_v71 val_main_v70 val_main_v69 val_main_v68 val_main_v67 val_main_v66 val_main_c_17 val_main_c_18
  rfl

/-! ## Degree and normalisation

The degree is the count of ones scattered to each destination; its inverse square root is taken where the degree is
positive; an edge's weight is the product of that at its two ends. The reference computes all of it once per layer. -/

/-- The in-degree, first layer's copy. -/
theorem deg_eq11 (x1 : (⟨S2x6400000, .i32⟩ : BufTy).Contents (Elt Ideal)) : Cert.KernelIdeal.KVal.deg x1 = val_main_v11 (F := Ideal) x1 := by
  unfold Cert.KernelIdeal.KVal.deg val_main_v11
  rw [dstCol_eq10]
  unfold val_main_v9 val_main_v8 val_main_cst_0 val_main_cst
  rfl

/-- The in-degree, second layer's copy. -/
theorem deg_eq53 (x1 : (⟨S2x6400000, .i32⟩ : BufTy).Contents (Elt Ideal)) : Cert.KernelIdeal.KVal.deg x1 = val_main_v53 (F := Ideal) x1 := by
  unfold Cert.KernelIdeal.KVal.deg val_main_v53
  rw [dstCol_eq52]
  unfold val_main_v51 val_main_v50 val_main_cst_11 val_main_cst_10
  rfl

/-- The inverse square root of the degree, first layer's copy. -/
theorem dinv_eq16 (x1 : (⟨S2x6400000, .i32⟩ : BufTy).Contents (Elt Ideal)) : Cert.KernelIdeal.KVal.dinv x1 = val_main_v16 (F := Ideal) x1 := by
  unfold Cert.KernelIdeal.KVal.dinv val_main_v16 val_main_v15 val_main_v13
  rw [deg_eq11]
  unfold val_main_v12 val_main_v14 val_main_call0_v1 val_main_call0_v0 val_main_cst_1 val_main_cst_2 val_main_cst_3
  rfl

/-- The inverse square root of the degree, second layer's copy. -/
theorem dinv_eq58 (x1 : (⟨S2x6400000, .i32⟩ : BufTy).Contents (Elt Ideal)) : Cert.KernelIdeal.KVal.dinv x1 = val_main_v58 (F := Ideal) x1 := by
  unfold Cert.KernelIdeal.KVal.dinv val_main_v58 val_main_v57 val_main_v55
  rw [deg_eq53]
  unfold val_main_v54 val_main_v56 val_main_call2_v1 val_main_call2_v0 val_main_cst_12 val_main_cst_13 val_main_cst_14
  rfl

/-- The edge weights as a column, first layer's copy. -/
theorem normCol_eq39 (x1 : (⟨S2x6400000, .i32⟩ : BufTy).Contents (Elt Ideal)) : Cert.KernelIdeal.KVal.normCol x1 = val_main_v39 (F := Ideal) x1 := by
  unfold Cert.KernelIdeal.KVal.normCol val_main_v39 val_main_v31 val_main_v30 val_main_v23
  rw [dinv_eq16, wrapSrc_eq22, wrapDst_eq29]
  rfl

/-- The edge weights as a column, second layer's copy. -/
theorem normCol_eq81 (x1 : (⟨S2x6400000, .i32⟩ : BufTy).Contents (Elt Ideal)) : Cert.KernelIdeal.KVal.normCol x1 = val_main_v81 (F := Ideal) x1 := by
  unfold Cert.KernelIdeal.KVal.normCol val_main_v81 val_main_v73 val_main_v72 val_main_v65
  rw [dinv_eq58, wrapSrc_eq64, wrapDst_eq71]
  rfl

/-! ## The four stages -/

theorem lin1_eq (x0 : (⟨S100000x1, .f32⟩ : BufTy).Contents (Elt Ideal)) (x2 : (⟨S1x16, .f32⟩ : BufTy).Contents (Elt Ideal)) :
    Cert.Spec.G0 x0 x2 = val_main_v7 (F := Ideal) x0 x2 := by
  funext i
  rw [val_main_v7_apply, Fin.sum_univ_one]
  unfold Cert.Spec.G0
  have e0 : (ix2 (⟨(i 0).val, (i 0).isLt⟩ : Fin 100000) (0 : Fin 1) : S100000x1.Idx) = lidx_main_v7 i 0 :=
    funext fun a => Fin.ext (by match a with | ⟨0, _⟩ => rfl | ⟨1, _⟩ => rfl)
  have e1 : (ix2 (0 : Fin 1) (⟨(i 1).val, (i 1).isLt⟩ : Fin 16) : S1x16.Idx) = ridx_main_v7 i 0 :=
    funext fun a => Fin.ext (by match a with | ⟨0, _⟩ => rfl | ⟨1, _⟩ => rfl)
  rw [e0, e1]

theorem agg16_eq (x0 : (⟨S100000x1, .f32⟩ : BufTy).Contents (Elt Ideal)) (x1 : (⟨S2x6400000, .i32⟩ : BufTy).Contents (Elt Ideal)) (x2 : (⟨S1x16, .f32⟩ : BufTy).Contents (Elt Ideal)) :
    Cert.KernelIdeal.KVal.agg16 x1 (val_main_v7 (F := Ideal) x0 x2) = val_main_v44 (F := Ideal) x0 x1 x2 := by
  unfold Cert.KernelIdeal.KVal.agg16 val_main_v44 val_main_v41 val_main_v40 val_main_v38
  rw [dstCol_eq43, wrapSrc_eq37, normCol_eq39]
  unfold val_main_v42 val_main_cst_9
  rfl

theorem lin2_eq (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal)) (x4 : (⟨S16x2, .f32⟩ : BufTy).Contents (Elt Ideal)) :
    Cert.Spec.G1 (val_main_v44 (F := Ideal) x0 x1 x2) (shapeCast Cert.KernelIdeal.S1x16 x3 Cert.KernelIdeal.Facts₀.shapeCasts_S16_S1x16) x4
      = val_main_v49 (F := Ideal) x0 x1 x2 x3 x4 := by
  funext i
  rw [val_main_v49_apply]
  unfold Cert.Spec.G1
  refine Finset.sum_congr rfl fun k _ => ?_
  rw [val_main_v48_apply, val_main_v47_apply, val_main_v46_apply, val_main_v45_apply, val_main_call1_v0_apply,
    val_main_call1_cst_apply]
  unfold Cert.Spec.relu1
  have eb : shapeCast Cert.KernelIdeal.S1x16 x3 Cert.KernelIdeal.Facts₀.shapeCasts_S16_S1x16 (ix2 (0 : Fin 1) k)
      = x3 (idx_main_v45 (idx_main_v46 (lidx_main_v49 i k))) :=
    shapeCast_apply x3 _ _ _ (by
      rw [Shape.rowMajor_val_two, Shape.rowMajor_val_one]
      show k.val = 0 * 16 + k.val
      omega)
  have ea : (ix2 (⟨(i 0).val, (i 0).isLt⟩ : Fin 100000) k : S100000x16.Idx) = lidx_main_v49 i k :=
    funext fun a => Fin.ext (by match a with | ⟨0, _⟩ => rfl | ⟨1, _⟩ => rfl)
  have ew : (ix2 k (⟨(i 1).val, (i 1).isLt⟩ : Fin 2) : S16x2.Idx) = ridx_main_v49 i k :=
    funext fun a => Fin.ext (by match a with | ⟨0, _⟩ => rfl | ⟨1, _⟩ => rfl)
  rw [eb, ea, ew]
  rfl

theorem agg2_eq (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal)) (x4 : (⟨S16x2, .f32⟩ : BufTy).Contents (Elt Ideal)) :
    Cert.KernelIdeal.KVal.agg2 x1 (val_main_v49 (F := Ideal) x0 x1 x2 x3 x4) = val_main_v86 (F := Ideal) x0 x1 x2 x3 x4 := by
  unfold Cert.KernelIdeal.KVal.agg2 val_main_v86 val_main_v83 val_main_v82 val_main_v80
  rw [dstCol_eq85, wrapSrc_eq79, normCol_eq81]
  unfold val_main_v84 val_main_cst_21
  rfl

/-- The second aggregate of the kernel's program is the reference's. -/
theorem aggregate_eq (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal)) (x4 : (⟨S16x2, .f32⟩ : BufTy).Contents (Elt Ideal)) :
    Cert.KernelIdeal.KVal.agg2 x1 (Cert.Spec.G1 (Cert.KernelIdeal.KVal.agg16 x1 (Cert.Spec.G0 x0 x2))
        (shapeCast Cert.KernelIdeal.S1x16 x3 Cert.KernelIdeal.Facts₀.shapeCasts_S16_S1x16) x4)
      = val_main_v86 (F := Ideal) x0 x1 x2 x3 x4 := by
  rw [lin1_eq, agg16_eq, lin2_eq, agg2_eq]

end Cert.Bridge

end
-- ==== Proof.Bridge2.lean ====
/-
  The two spellings of the log-softmax agree on rows of real numbers: z − (m + log Σ exp (z − m)) against
  (z − m) − log Σ exp (z − m), with m the row's maximum.
-/
import proofs.«143023_j88502096101846_1_alg».proof.Proof.RefRead
import proofs.«143023_j88502096101846_1_alg».proof.Proof.Spec
import proofs.«143023_j88502096101846_1_alg».proof.Proof.Fin
import proofs.«143023_j88502096101846_1_alg».proof.Proof.Gen.KernelIdeal
import Idealize.ShloMosaic.PureOps.Reduce
import Idealize.ShloMosaic.Lib.ValueLayout
import Mathlib.Data.EReal.Basic
import Mathlib.Analysis.Complex.Exponential
import Mathlib.Order.MinMax
import Mathlib.Data.Finset.Fold
import Mathlib.Algebra.BigOperators.Fin

set_option maxRecDepth 16384

noncomputable section

namespace Cert.Bridge

open Idealize.ShloMosaic Idealize.ShloMosaic.TcCoe Idealize.SL.Sem Idealize.ShloMosaic.ValueIdx
open Cert.ReferenceIdeal Cert.ReferenceIdeal.Gen Cert.ReferenceIdeal.ReadP Cert.FinLib
open scoped BigOperators

/-! ## Two real numbers -/

/-- The word with sign one, exponent all ones and significand zero is minus infinity. -/
private theorem negInf_eq_bot : Ideal.ofBits .f32 0xFF800000#32 = (⊥ : EReal) := by
  simp [Ideal.ofBits, Ideal.ieee]

/-- A fold over the two columns: the first combined with (the second combined with the seed). -/
private theorem fold_two (op : EReal → EReal → EReal) [Std.Commutative op] [Std.Associative op] (b : EReal)
    (z : Fin 2 → EReal) : (Finset.univ : Finset (Fin 2)).fold op b z = op (z 0) (op (z 1) b) := by
  have hu : (Finset.univ : Finset (Fin 2)) = insert 0 {1} := by decide
  rw [hu, Finset.fold_insert (by decide), Finset.fold_singleton]

/-- The maximum of two real numbers, taken among the extended reals, is their real maximum. -/
private theorem coe_max_real (a b : ℝ) : max (a : EReal) (b : EReal) = ((max a b : ℝ) : EReal) :=
  (EReal.coe_strictMono.monotone.map_max).symm

/-- The maximum of a row of two real numbers, folded from minus infinity, is the real maximum. -/
private theorem rowMax_real (z : Fin 2 → EReal) (r0 r1 : ℝ) (h0 : z 0 = (r0 : EReal)) (h1 : z 1 = (r1 : EReal)) :
    Cert.Spec.rowMax z = ((max r0 r1 : ℝ) : EReal) := by
  unfold Cert.Spec.rowMax
  rw [fold_two, negInf_eq_bot, h0, h1, max_bot_right, coe_max_real]

/-- On a row of real numbers the two spellings agree: m and log Σ exp (z − m) are both real (the sum of
    exponentials is positive), and subtracting a sum of two reals is subtracting one and then the other. -/
private theorem spellings_agree (z : Fin 2 → EReal) (hz : ∀ k, ∃ r : ℝ, z k = (r : EReal)) (q : Fin 2) :
    z q - (Cert.Spec.rowMax z + Ideal.log (∑ k : Fin 2, Ideal.exp (z k - Cert.Spec.rowMax z)))
      = (z q - Cert.Spec.rowMax z) - Ideal.log (0 + ∑ k : Fin 2, Ideal.exp (z k - Cert.Spec.rowMax z)) := by
  obtain ⟨r0, h0⟩ := hz 0
  obtain ⟨r1, h1⟩ := hz 1
  rw [rowMax_real z r0 r1 h0 h1, Fin.sum_univ_two, h0, h1, zero_add, ← EReal.coe_sub, ← EReal.coe_sub,
    Ideal.exp_coe, Ideal.exp_coe, ← EReal.coe_add, Ideal.log_coe,
    if_neg (not_le.2 (add_pos (Real.exp_pos _) (Real.exp_pos _)))]
  exact sub_add_real _ _ _

/-! ## The kernel's row of logits is the reference's -/

/-- z[p, k] = a[p, k] + b[k]: the bias reshaped to one row, read at (0, k), and the bias broadcast down the rows,
    read at (p, k), are both entry k of the bias. -/
private theorem zrow_eq (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal)) (x4 : (⟨S16x2, .f32⟩ : BufTy).Contents (Elt Ideal)) (x5 : (⟨S2, .f32⟩ : BufTy).Contents (Elt Ideal)) (p : Fin 100000) (k : Fin 2) :
    Cert.Spec.zrow (val_main_v86 (F := Ideal) x0 x1 x2 x3 x4) (shapeCast Cert.KernelIdeal.S1x2 x5 Cert.KernelIdeal.Facts₀.shapeCasts_S2_S1x2) p k
      = val_main_v89 (F := Ideal) x0 x1 x2 x3 x4 x5 (ix2 p k) := by
  unfold Cert.Spec.zrow
  rw [val_main_v89_apply, val_main_v88_apply, val_main_v87_apply, Ideal.addf_def]
  refine congrArg (val_main_v86 (F := Ideal) x0 x1 x2 x3 x4 (ix2 p k) + ·) ?_
  rw [shapeCast_a_1a_apply]
  exact congrArg x5 (funext fun a => by match a with | ⟨0, _⟩ => rfl)

/-! ## The reference's log-softmax read at row p -/

/-- Row p with column k put back on the reduced axis is (p, k). -/
private theorem lift_row (h : S100000x2.Reduces [1] S100000) (p : Fin 100000) (k : Fin (S100000x2.size 1)) :
    h.lift (ix1 p) k = ix2 p (⟨k.val, k.isLt⟩ : Fin 2) := by
  funext c
  apply Fin.ext
  match c with
  | ⟨0, _⟩ => rfl
  | ⟨1, _⟩ => rfl

/-- A reduction with a maximum body over the columns of any array, seeded with minus infinity, is at row p the
    row's maximum folded from minus infinity. -/
private theorem reduce_max_row (y : S100000x2.Idx → Ideal .f32) (p : Fin 100000) :
    Host.reduce FloatOps.maximumf y (val_main_call3_cst (F := Ideal)) reducesTo_S100000x2_S100000_d1 h_S_ (ix1 p)
      = Cert.Spec.rowMax (fun k => y (ix2 p k)) := by
  unfold Cert.Spec.rowMax
  have h : S100000x2.Reduces [1] S100000 := by decide
  rw [Host.reduce_eq_fold_single FloatOps.maximumf y _ reducesTo_S100000x2_S100000_d1 h h_S_]
  have hf : (y ∘ h.lift (ix1 p)) = fun k : Fin 2 => y (ix2 p k) :=
    funext fun k => congrArg y (lift_row h p k)
  exact congrArg (fun f => Finset.fold max (Ideal.ofBits .f32 0xFF800000#32) f (Finset.univ : Finset (Fin 2))) hf

/-- So the reference's row maximum, at row p, is the maximum of the row of logits folded from minus infinity. -/
private theorem rowMax_read (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal)) (x4 : (⟨S16x2, .f32⟩ : BufTy).Contents (Elt Ideal)) (x5 : (⟨S2, .f32⟩ : BufTy).Contents (Elt Ideal)) (p : Fin 100000) :
    val_main_call3_v0 (F := Ideal) x0 x1 x2 x3 x4 x5 (ix1 p)
      = Cert.Spec.rowMax (fun k => val_main_v89 (F := Ideal) x0 x1 x2 x3 x4 x5 (ix2 p k)) := by
  unfold val_main_call3_v0
  exact reduce_max_row (val_main_v89 (F := Ideal) x0 x1 x2 x3 x4 x5) p

/-- The reference's result at (p, q): (z q − m) − log (0 + Σ exp (z k − m)), m the row's maximum. -/
private theorem reference_row (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal)) (x4 : (⟨S16x2, .f32⟩ : BufTy).Contents (Elt Ideal)) (x5 : (⟨S2, .f32⟩ : BufTy).Contents (Elt Ideal)) (p : Fin 100000) (q : Fin 2) :
    val_main_v90 (F := Ideal) x0 x1 x2 x3 x4 x5 (ix2 p q)
      = (val_main_v89 (F := Ideal) x0 x1 x2 x3 x4 x5 (ix2 p q)
            - Cert.Spec.rowMax (fun k => val_main_v89 (F := Ideal) x0 x1 x2 x3 x4 x5 (ix2 p k)))
          - Ideal.log (0 + ∑ k : Fin 2, Ideal.exp (val_main_v89 (F := Ideal) x0 x1 x2 x3 x4 x5 (ix2 p k)
              - Cert.Spec.rowMax (fun k => val_main_v89 (F := Ideal) x0 x1 x2 x3 x4 x5 (ix2 p k)))) := by
  -- the maximum broadcast back over the row: the seed is absorbed
  have hM : ∀ k : Fin 2, val_main_call3_v4 (F := Ideal) x0 x1 x2 x3 x4 x5 (ix2 p k)
      = Cert.Spec.rowMax (fun k => val_main_v89 (F := Ideal) x0 x1 x2 x3 x4 x5 (ix2 p k)) := by
    intro k
    rw [val_main_call3_v4_apply, val_main_call3_v3_apply, val_main_call3_v2_apply, val_main_call3_v1_apply,
      val_main_call3_cst_0_apply, Ideal.maximumf_def, Ideal.ofBits_def, negInf_eq_bot, max_bot_left]
    rw [← rowMax_read x0 x1 x2 x3 x4 x5 p]
    exact congrArg (val_main_call3_v0 (F := Ideal) x0 x1 x2 x3 x4 x5) (funext fun a => by match a with | ⟨0, _⟩ => rfl)
  -- the shifted logits
  have h5 : ∀ k : Fin 2, val_main_call3_v5 (F := Ideal) x0 x1 x2 x3 x4 x5 (ix2 p k)
      = val_main_v89 (F := Ideal) x0 x1 x2 x3 x4 x5 (ix2 p k)
          - Cert.Spec.rowMax (fun k => val_main_v89 (F := Ideal) x0 x1 x2 x3 x4 x5 (ix2 p k)) := by
    intro k
    rw [val_main_call3_v5_apply, hM k, Ideal.subf_def]
  -- the sum of their exponentials, from zero
  have h7 : val_main_call3_v7 (F := Ideal) x0 x1 x2 x3 x4 x5 (ix1 p)
      = 0 + ∑ k : Fin 2, Ideal.exp (val_main_v89 (F := Ideal) x0 x1 x2 x3 x4 x5 (ix2 p k)
          - Cert.Spec.rowMax (fun k => val_main_v89 (F := Ideal) x0 x1 x2 x3 x4 x5 (ix2 p k))) := by
    rw [val_main_call3_v7_apply, val_main_call3_cst_1_apply, Ideal.ofBits_def, Ideal.ofBits_zero_f32]
    refine congrArg (0 + ·) (Finset.sum_congr rfl fun k _ => ?_)
    rw [← h5 k, ← Ideal.hostUnary_exp_def, ← val_main_call3_v6_apply]
    exact congrArg (val_main_call3_v6 (F := Ideal) x0 x1 x2 x3 x4 x5)
      (funext fun a => by match a with | ⟨0, _⟩ => rfl | ⟨1, _⟩ => rfl)
  -- its logarithm, broadcast back over the row
  have h10 : val_main_call3_v10 (F := Ideal) x0 x1 x2 x3 x4 x5 (ix2 p q)
      = Ideal.log (0 + ∑ k : Fin 2, Ideal.exp (val_main_v89 (F := Ideal) x0 x1 x2 x3 x4 x5 (ix2 p k)
          - Cert.Spec.rowMax (fun k => val_main_v89 (F := Ideal) x0 x1 x2 x3 x4 x5 (ix2 p k)))) := by
    rw [val_main_call3_v10_apply, val_main_call3_v9_apply, val_main_call3_v8_apply, Ideal.hostUnary_log_def, ← h7]
    exact congrArg (fun j => Ideal.log (val_main_call3_v7 (F := Ideal) x0 x1 x2 x3 x4 x5 j))
      (funext fun a => by match a with | ⟨0, _⟩ => rfl)
  rw [val_main_v90_apply, h5 q, h10, Ideal.subf_def]

/-! ## The two results agree -/

theorem softmax_eq (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal)) (x4 : (⟨S16x2, .f32⟩ : BufTy).Contents (Elt Ideal)) (x5 : (⟨S2, .f32⟩ : BufTy).Contents (Elt Ideal))
    (hz : AllReal (val_main_v89 (F := Ideal) x0 x1 x2 x3 x4 x5)) :
    Cert.Spec.G2 (val_main_v86 (F := Ideal) x0 x1 x2 x3 x4) (shapeCast Cert.KernelIdeal.S1x2 x5 Cert.KernelIdeal.Facts₀.shapeCasts_S2_S1x2)
      = val_main_v90 (F := Ideal) x0 x1 x2 x3 x4 x5 := by
  funext i
  obtain ⟨p, q, rfl⟩ : ∃ (p : Fin 100000) (q : Fin 2), i = ix2 p q := ⟨i 0, i 1, eq_ix2 i⟩
  have hrow : Cert.Spec.zrow (val_main_v86 (F := Ideal) x0 x1 x2 x3 x4) (shapeCast Cert.KernelIdeal.S1x2 x5 Cert.KernelIdeal.Facts₀.shapeCasts_S2_S1x2) p
      = fun k => val_main_v89 (F := Ideal) x0 x1 x2 x3 x4 x5 (ix2 p k) :=
    funext fun k => zrow_eq x0 x1 x2 x3 x4 x5 p k
  rw [reference_row x0 x1 x2 x3 x4 x5 p q]
  show Cert.Spec.zrow _ _ p q - (Cert.Spec.rowMax (Cert.Spec.zrow _ _ p)
      + Ideal.log (∑ k : Fin 2, Ideal.exp (Cert.Spec.zrow _ _ p k - Cert.Spec.rowMax (Cert.Spec.zrow _ _ p)))) = _
  rw [hrow]
  exact spellings_agree (fun k => val_main_v89 (F := Ideal) x0 x1 x2 x3 x4 x5 (ix2 p k)) (fun k => hz (ix2 p k)) q

end Cert.Bridge

end
-- ==== Proof.RFin.lean ====
/-
  The reference's biased second aggregate (the logits the log-softmax is taken of) holds only real numbers when the
  five float arguments do: every stage on the way keeps real entries real.

  The road, bottom-up. The degree of a node is a finite sum of ones, hence real; its power with exponent minus one half
  is a real power of a real number, hence real (the predicate asks for no sign); the selection between that power and
  zero is real; an edge's weight is the product of two such factors read at its end points. A layer multiplies its
  input by a matrix (finite sums of products), reads the result at every edge's source, scales it by the edge's
  weight, sums the messages that arrive at each node, and adds a bias; the first layer then takes the larger of the
  result and zero. Each of these steps sends real entries to real entries, and none of them asks anything of the
  integer edge array: which entries a read or an accumulation touches does not matter when all of them are real.
-/
import proofs.«143023_j88502096101846_1_alg».proof.Proof.RefRead
import proofs.«143023_j88502096101846_1_alg».proof.Proof.Fin

noncomputable section

namespace Cert.RefFin

open Idealize.ShloMosaic Idealize.ShloMosaic.TcCoe Idealize.SL.Sem
open Cert.ReferenceIdeal Cert.ReferenceIdeal.Gen Cert.ReferenceIdeal.ReadP Cert.FinLib

/-! ### The scalar constants -/

/-- The scalar one. -/
theorem cst_real :
    AllReal (val_main_cst (F := Ideal)) := by
  unfold val_main_cst
  exact allReal_constant_one _

/-- The scalar zero the first degree count starts from. -/
theorem cst_0_real :
    AllReal (val_main_cst_0 (F := Ideal)) := by
  unfold val_main_cst_0
  exact allReal_constant_zero _

/-- The scalar minus one half, the exponent of the first normalisation. -/
theorem cst_2_real :
    AllReal (val_main_cst_2 (F := Ideal)) := by
  unfold val_main_cst_2
  exact allReal_constant_neg_half _

/-- The scalar zero put where a first-layer degree is not positive. -/
theorem cst_3_real :
    AllReal (val_main_cst_3 (F := Ideal)) := by
  unfold val_main_cst_3
  exact allReal_constant_zero _

/-- The scalar zero the first aggregate starts from. -/
theorem cst_9_real :
    AllReal (val_main_cst_9 (F := Ideal)) := by
  unfold val_main_cst_9
  exact allReal_constant_zero _

/-- The scalar zero the rectifier compares with. -/
theorem call1_cst_real :
    AllReal (val_main_call1_cst (F := Ideal)) := by
  unfold val_main_call1_cst
  exact allReal_constant_zero _

/-- The scalar one counted per edge in the second degree count. -/
theorem cst_10_real :
    AllReal (val_main_cst_10 (F := Ideal)) := by
  unfold val_main_cst_10
  exact allReal_constant_one _

/-- The scalar zero the second degree count starts from. -/
theorem cst_11_real :
    AllReal (val_main_cst_11 (F := Ideal)) := by
  unfold val_main_cst_11
  exact allReal_constant_zero _

/-- The scalar minus one half, the exponent of the second normalisation. -/
theorem cst_13_real :
    AllReal (val_main_cst_13 (F := Ideal)) := by
  unfold val_main_cst_13
  exact allReal_constant_neg_half _

/-- The scalar zero put where a second-layer degree is not positive. -/
theorem cst_14_real :
    AllReal (val_main_cst_14 (F := Ideal)) := by
  unfold val_main_cst_14
  exact allReal_constant_zero _

/-- The scalar zero the second aggregate starts from. -/
theorem cst_21_real :
    AllReal (val_main_cst_21 (F := Ideal)) := by
  unfold val_main_cst_21
  exact allReal_constant_zero _

/-! ### The first layer's edge weights -/

/-- One per edge (self-loops included): the summands of the degree. -/
theorem v8_real :
    AllReal (val_main_v8 (F := Ideal)) := by
  unfold val_main_v8
  exact allReal_broadcastInDim _ _ _ cst_real

/-- Zero per node: the start of the degree count. -/
theorem v9_real :
    AllReal (val_main_v9 (F := Ideal)) := by
  unfold val_main_v9
  exact allReal_broadcastInDim _ _ _ cst_0_real

/-- The degree of each node, a finite sum of ones added to zero, whatever the edge array holds. -/
theorem v11_real (x1 : (⟨S2x6400000, .i32⟩ : BufTy).Contents (Elt Ideal)) :
    AllReal (val_main_v11 (F := Ideal) x1) := by
  unfold val_main_v11
  exact allReal_scatterAdd _ _ _ _ v9_real v8_real

/-- Minus one half per node. -/
theorem v14_real :
    AllReal (val_main_v14 (F := Ideal)) := by
  unfold val_main_v14
  exact allReal_broadcastInDim _ _ _ cst_2_real

/-- The degree to the power minus one half: a real power of a real number. -/
theorem v15_real (x1 : (⟨S2x6400000, .i32⟩ : BufTy).Contents (Elt Ideal)) :
    AllReal (val_main_v15 (F := Ideal) x1) := by
  unfold val_main_v15
  exact allReal_powf _ _ (v11_real x1) v14_real

/-- The zero constant passed through unchanged. -/
theorem call0_v0_real :
    AllReal (val_main_call0_v0 (F := Ideal)) := by
  unfold val_main_call0_v0
  exact cst_3_real

/-- Zero per node, the value chosen where the degree is not positive. -/
theorem call0_v1_real :
    AllReal (val_main_call0_v1 (F := Ideal)) := by
  unfold val_main_call0_v1
  exact allReal_broadcastInDim _ _ _ call0_v0_real

/-- The inverse square root of the degree, or zero: either choice is real. -/
theorem v16_real (x1 : (⟨S2x6400000, .i32⟩ : BufTy).Contents (Elt Ideal)) :
    AllReal (val_main_v16 (F := Ideal) x1) := by
  unfold val_main_v16
  exact allReal_select _ _ _ (v15_real x1) call0_v1_real

/-- The normalising factor read at each edge's source. -/
theorem v23_real (x1 : (⟨S2x6400000, .i32⟩ : BufTy).Contents (Elt Ideal)) :
    AllReal (val_main_v23 (F := Ideal) x1) := by
  unfold val_main_v23
  exact allReal_gather _ _ _ (v16_real x1)

/-- The normalising factor read at each edge's target. -/
theorem v30_real (x1 : (⟨S2x6400000, .i32⟩ : BufTy).Contents (Elt Ideal)) :
    AllReal (val_main_v30 (F := Ideal) x1) := by
  unfold val_main_v30
  exact allReal_gather _ _ _ (v16_real x1)

/-- The weight of each edge, a product of two real factors. -/
theorem v31_real (x1 : (⟨S2x6400000, .i32⟩ : BufTy).Contents (Elt Ideal)) :
    AllReal (val_main_v31 (F := Ideal) x1) := by
  unfold val_main_v31
  exact allReal_mulf _ _ (v23_real x1) (v30_real x1)

/-! ### The first layer -/

/-- The first linear map: finite sums of products of real entries. -/
theorem v7_real (x0 : (⟨S100000x1, .f32⟩ : BufTy).Contents (Elt Ideal)) (x2 : (⟨S1x16, .f32⟩ : BufTy).Contents (Elt Ideal))
    (h0 : AllReal x0) (h2 : AllReal x2) :
    AllReal (val_main_v7 (F := Ideal) x0 x2) := by
  unfold val_main_v7
  exact allReal_dotGeneral _ _ _ _ h0 h2

/-- The transformed features read at each edge's source. -/
theorem v38_real (x0 : (⟨S100000x1, .f32⟩ : BufTy).Contents (Elt Ideal)) (x1 : (⟨S2x6400000, .i32⟩ : BufTy).Contents (Elt Ideal)) (x2 : (⟨S1x16, .f32⟩ : BufTy).Contents (Elt Ideal))
    (h0 : AllReal x0) (h2 : AllReal x2) :
    AllReal (val_main_v38 (F := Ideal) x0 x1 x2) := by
  unfold val_main_v38
  exact allReal_gather _ _ _ (v7_real x0 x2 h0 h2)

/-- The edge weights as a column. -/
theorem v39_real (x1 : (⟨S2x6400000, .i32⟩ : BufTy).Contents (Elt Ideal)) :
    AllReal (val_main_v39 (F := Ideal) x1) := by
  unfold val_main_v39
  exact allReal_broadcastInDim _ _ _ (v31_real x1)

/-- The edge weights repeated along the sixteen features. -/
theorem v40_real (x1 : (⟨S2x6400000, .i32⟩ : BufTy).Contents (Elt Ideal)) :
    AllReal (val_main_v40 (F := Ideal) x1) := by
  unfold val_main_v40
  exact allReal_broadcastInDim _ _ _ (v39_real x1)

/-- The weighted messages of the first layer. -/
theorem v41_real (x0 : (⟨S100000x1, .f32⟩ : BufTy).Contents (Elt Ideal)) (x1 : (⟨S2x6400000, .i32⟩ : BufTy).Contents (Elt Ideal)) (x2 : (⟨S1x16, .f32⟩ : BufTy).Contents (Elt Ideal))
    (h0 : AllReal x0) (h2 : AllReal x2) :
    AllReal (val_main_v41 (F := Ideal) x0 x1 x2) := by
  unfold val_main_v41
  exact allReal_mulf _ _ (v38_real x0 x1 x2 h0 h2) (v40_real x1)

/-- Zero per node and feature: the start of the first aggregate. -/
theorem v42_real :
    AllReal (val_main_v42 (F := Ideal)) := by
  unfold val_main_v42
  exact allReal_broadcastInDim _ _ _ cst_9_real

/-- The first aggregate: finite sums of real messages added to zero. -/
theorem v44_real (x0 : (⟨S100000x1, .f32⟩ : BufTy).Contents (Elt Ideal)) (x1 : (⟨S2x6400000, .i32⟩ : BufTy).Contents (Elt Ideal)) (x2 : (⟨S1x16, .f32⟩ : BufTy).Contents (Elt Ideal))
    (h0 : AllReal x0) (h2 : AllReal x2) :
    AllReal (val_main_v44 (F := Ideal) x0 x1 x2) := by
  unfold val_main_v44
  exact allReal_scatterAdd _ _ _ _ v42_real (v41_real x0 x1 x2 h0 h2)

/-- The first bias as a row. -/
theorem v45_real (x3 : (⟨S16, .f32⟩ : BufTy).Contents (Elt Ideal))
    (h3 : AllReal x3) :
    AllReal (val_main_v45 (F := Ideal) x3) := by
  unfold val_main_v45
  exact allReal_broadcastInDim _ _ _ h3

/-- The first bias repeated for every node. -/
theorem v46_real (x3 : (⟨S16, .f32⟩ : BufTy).Contents (Elt Ideal))
    (h3 : AllReal x3) :
    AllReal (val_main_v46 (F := Ideal) x3) := by
  unfold val_main_v46
  exact allReal_broadcastInDim _ _ _ (v45_real x3 h3)

/-- The biased first aggregate. -/
theorem v47_real (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal))
    (h0 : AllReal x0) (h2 : AllReal x2) (h3 : AllReal x3) :
    AllReal (val_main_v47 (F := Ideal) x0 x1 x2 x3) := by
  unfold val_main_v47
  exact allReal_addf _ _ (v44_real x0 x1 x2 h0 h2) (v46_real x3 h3)

/-- Zero per node and feature, the rectifier's floor. -/
theorem call1_v0_real :
    AllReal (val_main_call1_v0 (F := Ideal)) := by
  unfold val_main_call1_v0
  exact allReal_broadcastInDim _ _ _ call1_cst_real

/-- The hidden features: the larger of a real number and zero. -/
theorem v48_real (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal))
    (h0 : AllReal x0) (h2 : AllReal x2) (h3 : AllReal x3) :
    AllReal (val_main_v48 (F := Ideal) x0 x1 x2 x3) := by
  unfold val_main_v48
  exact allReal_maximumf _ _ (v47_real x0 x1 x2 x3 h0 h2 h3) call1_v0_real

/-- The second linear map: finite sums of products of real entries. -/
theorem v49_real (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal)) (x4 : (⟨S16x2, .f32⟩ : BufTy).Contents (Elt Ideal))
    (h0 : AllReal x0) (h2 : AllReal x2) (h3 : AllReal x3) (h4 : AllReal x4) :
    AllReal (val_main_v49 (F := Ideal) x0 x1 x2 x3 x4) := by
  unfold val_main_v49
  exact allReal_dotGeneral _ _ _ _ (v48_real x0 x1 x2 x3 h0 h2 h3) h4

/-! ### The second layer's edge weights -/

/-- One per edge again, for the second degree count. -/
theorem v50_real :
    AllReal (val_main_v50 (F := Ideal)) := by
  unfold val_main_v50
  exact allReal_broadcastInDim _ _ _ cst_10_real

/-- Zero per node again. -/
theorem v51_real :
    AllReal (val_main_v51 (F := Ideal)) := by
  unfold val_main_v51
  exact allReal_broadcastInDim _ _ _ cst_11_real

/-- The degree of each node, counted a second time. -/
theorem v53_real (x1 : (⟨S2x6400000, .i32⟩ : BufTy).Contents (Elt Ideal)) :
    AllReal (val_main_v53 (F := Ideal) x1) := by
  unfold val_main_v53
  exact allReal_scatterAdd _ _ _ _ v51_real v50_real

/-- Minus one half per node again. -/
theorem v56_real :
    AllReal (val_main_v56 (F := Ideal)) := by
  unfold val_main_v56
  exact allReal_broadcastInDim _ _ _ cst_13_real

/-- The degree to the power minus one half, second layer. -/
theorem v57_real (x1 : (⟨S2x6400000, .i32⟩ : BufTy).Contents (Elt Ideal)) :
    AllReal (val_main_v57 (F := Ideal) x1) := by
  unfold val_main_v57
  exact allReal_powf _ _ (v53_real x1) v56_real

/-- The zero constant passed through unchanged, second layer. -/
theorem call2_v0_real :
    AllReal (val_main_call2_v0 (F := Ideal)) := by
  unfold val_main_call2_v0
  exact cst_14_real

/-- Zero per node, the value chosen where the second degree count is not positive. -/
theorem call2_v1_real :
    AllReal (val_main_call2_v1 (F := Ideal)) := by
  unfold val_main_call2_v1
  exact allReal_broadcastInDim _ _ _ call2_v0_real

/-- The second layer's normalising factor: a real power or zero. -/
theorem v58_real (x1 : (⟨S2x6400000, .i32⟩ : BufTy).Contents (Elt Ideal)) :
    AllReal (val_main_v58 (F := Ideal) x1) := by
  unfold val_main_v58
  exact allReal_select _ _ _ (v57_real x1) call2_v1_real

/-- The second normalising factor read at each edge's source. -/
theorem v65_real (x1 : (⟨S2x6400000, .i32⟩ : BufTy).Contents (Elt Ideal)) :
    AllReal (val_main_v65 (F := Ideal) x1) := by
  unfold val_main_v65
  exact allReal_gather _ _ _ (v58_real x1)

/-- The second normalising factor read at each edge's target. -/
theorem v72_real (x1 : (⟨S2x6400000, .i32⟩ : BufTy).Contents (Elt Ideal)) :
    AllReal (val_main_v72 (F := Ideal) x1) := by
  unfold val_main_v72
  exact allReal_gather _ _ _ (v58_real x1)

/-- The edge weights of the second layer. -/
theorem v73_real (x1 : (⟨S2x6400000, .i32⟩ : BufTy).Contents (Elt Ideal)) :
    AllReal (val_main_v73 (F := Ideal) x1) := by
  unfold val_main_v73
  exact allReal_mulf _ _ (v65_real x1) (v72_real x1)

/-! ### The second layer -/

/-- The second layer's transformed features read at each edge's source. -/
theorem v80_real (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal)) (x4 : (⟨S16x2, .f32⟩ : BufTy).Contents (Elt Ideal))
    (h0 : AllReal x0) (h2 : AllReal x2) (h3 : AllReal x3) (h4 : AllReal x4) :
    AllReal (val_main_v80 (F := Ideal) x0 x1 x2 x3 x4) := by
  unfold val_main_v80
  exact allReal_gather _ _ _ (v49_real x0 x1 x2 x3 x4 h0 h2 h3 h4)

/-- The second edge weights as a column. -/
theorem v81_real (x1 : (⟨S2x6400000, .i32⟩ : BufTy).Contents (Elt Ideal)) :
    AllReal (val_main_v81 (F := Ideal) x1) := by
  unfold val_main_v81
  exact allReal_broadcastInDim _ _ _ (v73_real x1)

/-- The second edge weights repeated along the two classes. -/
theorem v82_real (x1 : (⟨S2x6400000, .i32⟩ : BufTy).Contents (Elt Ideal)) :
    AllReal (val_main_v82 (F := Ideal) x1) := by
  unfold val_main_v82
  exact allReal_broadcastInDim _ _ _ (v81_real x1)

/-- The weighted messages of the second layer. -/
theorem v83_real (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal)) (x4 : (⟨S16x2, .f32⟩ : BufTy).Contents (Elt Ideal))
    (h0 : AllReal x0) (h2 : AllReal x2) (h3 : AllReal x3) (h4 : AllReal x4) :
    AllReal (val_main_v83 (F := Ideal) x0 x1 x2 x3 x4) := by
  unfold val_main_v83
  exact allReal_mulf _ _ (v80_real x0 x1 x2 x3 x4 h0 h2 h3 h4) (v82_real x1)

/-- Zero per node and class: the start of the second aggregate. -/
theorem v84_real :
    AllReal (val_main_v84 (F := Ideal)) := by
  unfold val_main_v84
  exact allReal_broadcastInDim _ _ _ cst_21_real

/-- The second aggregate: finite sums of real messages added to zero. -/
theorem v86_real (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal)) (x4 : (⟨S16x2, .f32⟩ : BufTy).Contents (Elt Ideal))
    (h0 : AllReal x0) (h2 : AllReal x2) (h3 : AllReal x3) (h4 : AllReal x4) :
    AllReal (val_main_v86 (F := Ideal) x0 x1 x2 x3 x4) := by
  unfold val_main_v86
  exact allReal_scatterAdd _ _ _ _ v84_real (v83_real x0 x1 x2 x3 x4 h0 h2 h3 h4)

/-- The second bias as a row. -/
theorem v87_real (x5 : (⟨S2, .f32⟩ : BufTy).Contents (Elt Ideal))
    (h5 : AllReal x5) :
    AllReal (val_main_v87 (F := Ideal) x5) := by
  unfold val_main_v87
  exact allReal_broadcastInDim _ _ _ h5

/-- The second bias repeated for every node. -/
theorem v88_real (x5 : (⟨S2, .f32⟩ : BufTy).Contents (Elt Ideal))
    (h5 : AllReal x5) :
    AllReal (val_main_v88 (F := Ideal) x5) := by
  unfold val_main_v88
  exact allReal_broadcastInDim _ _ _ (v87_real x5 h5)

/-- The logits: the second aggregate plus the second bias. -/
theorem logits_allReal (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal)) (x4 : (⟨S16x2, .f32⟩ : BufTy).Contents (Elt Ideal)) (x5 : (⟨S2, .f32⟩ : BufTy).Contents (Elt Ideal))
    (h0 : AllReal x0) (h2 : AllReal x2) (h3 : AllReal x3) (h4 : AllReal x4) (h5 : AllReal x5) :
    AllReal (val_main_v89 (F := Ideal) x0 x1 x2 x3 x4 x5) := by
  unfold val_main_v89
  exact allReal_addf _ _ (v86_real x0 x1 x2 x3 x4 h0 h2 h3 h4) (v88_real x5 h5)

end Cert.RefFin

end
-- ==== Proof.Bridge.lean ====
/-
  The kernel's program and the reference are one function of real arguments.
-/
import proofs.«143023_j88502096101846_1_alg».proof.Proof.Bridge1
import proofs.«143023_j88502096101846_1_alg».proof.Proof.Bridge2
import proofs.«143023_j88502096101846_1_alg».proof.Proof.RFin

noncomputable section

namespace Cert.Bridge

open Idealize.ShloMosaic Idealize.ShloMosaic.TcCoe Idealize.SL.Sem
open Cert.ReferenceIdeal Cert.ReferenceIdeal.Gen Cert.ReferenceIdeal.ReadP Cert.FinLib

/-- On real arguments the program's result is the reference's: the aggregates agree stage by stage, the logits are real,
    and on real logits the two spellings of the log-softmax agree. -/
theorem result_eq (x0 : (⟨S100000x1, .f32⟩ : BufTy).Contents (Elt Ideal)) (x1 : (⟨S2x6400000, .i32⟩ : BufTy).Contents (Elt Ideal)) (x2 : (⟨S1x16, .f32⟩ : BufTy).Contents (Elt Ideal)) (x3 : (⟨S16, .f32⟩ : BufTy).Contents (Elt Ideal)) (x4 : (⟨S16x2, .f32⟩ : BufTy).Contents (Elt Ideal)) (x5 : (⟨S2, .f32⟩ : BufTy).Contents (Elt Ideal))
    (h0 : AllReal x0) (h2 : AllReal x2) (h3 : AllReal x3) (h4 : AllReal x4) (h5 : AllReal x5) :
    Cert.KernelIdeal.KVal.result x0 x1 x2 x3 x4 x5 = val_main_v90 (F := Ideal) x0 x1 x2 x3 x4 x5 := by
  unfold Cert.KernelIdeal.KVal.result
  rw [aggregate_eq]
  exact softmax_eq x0 x1 x2 x3 x4 x5 (Cert.RefFin.logits_allReal x0 x1 x2 x3 x4 x5 h0 h2 h3 h4 h5)

end Cert.Bridge

end
-- ==== Proof.lean ====
/-
  The certificate of a two-layer graph convolution with a row-wise log-softmax: three dense stages run as pipelined
  kernels among the host's gathers and accumulating scatters, against the same network written with whole-array
  matrix products. Over the extended reals the two agree on every finite input: the outer product is the one-term
  matrix product, the second stage's block products sum the same terms as the whole product, the aggregations are
  the same operations on equal operands, and the two spellings of the log-softmax, z − (m + log Σ exp (z − m)) and
  (z − m) − log Σ exp (z − m), agree because every logit is a real number (finite inputs stay finite through every
  stage: degrees are finite counts, their inverse square roots real, sums of finitely many reals real).
-/
import proofs.«143023_j88502096101846_1_alg».proof.Defs
import proofs.«143023_j88502096101846_1_alg».proof.Proof.Gen.Kernel
import proofs.«143023_j88502096101846_1_alg».proof.Proof.Gen.Kernel.Frame
import proofs.«143023_j88502096101846_1_alg».proof.Proof.Gen.KernelIdeal
import proofs.«143023_j88502096101846_1_alg».proof.Proof.Gen.KernelIdeal.Frame
import proofs.«143023_j88502096101846_1_alg».proof.Proof.Gen.ReferenceIdeal
import proofs.«143023_j88502096101846_1_alg».proof.Proof.Gen.Pre_finite_inputs
import proofs.«143023_j88502096101846_1_alg».proof.Proof.KRun
import proofs.«143023_j88502096101846_1_alg».proof.Proof.KVal
import proofs.«143023_j88502096101846_1_alg».proof.Proof.RefRun
import proofs.«143023_j88502096101846_1_alg».proof.Proof.RefRead
import proofs.«143023_j88502096101846_1_alg».proof.Proof.PreFin
import proofs.«143023_j88502096101846_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end, from memories agreeing on the arguments, with the same result array: the kernel program's
    at the fold's final contents, which is the program's function of the launch arguments; the reference's at its composed
    term of the same arguments; and on finite arguments the two functions agree. -/
theorem algebraic : Cert.algebraic_KernelIdeal_ReferenceIdeal := by
  intro m ρ m' ρ' hpre hagree
  refine ⟨fun c => Cert.KernelIdeal.Gen.W8 m ρ c (Proc.devRef .tc Cert.KernelIdeal.main_v60), ?_, ?_⟩
  · exact (θ_run Cert.KernelIdeal.defs _ _).mono (fun _ h c => h c) (Cert.KernelIdeal.Gen.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a2, a3, a4, a5⟩ := Cert.PreFin.args_allReal m hpre c
    rw [Cert.ReferenceIdeal.ReadP.val_main_v90_eq, (hagree c).1, (hagree c).2.1, (hagree c).2.2.1, (hagree c).2.2.2.1,
      (hagree c).2.2.2.2.1, (hagree c).2.2.2.2.2]
    show _ = Cert.KernelIdeal.Gen.W8 m ρ c (Proc.devRef .tc Cert.KernelIdeal.main_v60)
    rw [Cert.KernelIdeal.KVal.W8_result]
    exact (Cert.Bridge.result_eq _ _ _ _ _ _ a0 a2 a3 a4 a5).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
